-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v4_0)) (v2 : (c : Dev Cert.KernelIdeal.nD) → Buf (Elt Ideal) ((c.tc : Thread Cert.KernelIdeal.nD Cert.KernelIdeal.τ).loc Cert.KernelIdeal.main_v0_3)) (v3 : (c : Dev Cert.KernelIdeal.nD) → Buf (Elt Ideal) ((c.tc : Thread Cert.KernelIdeal.nD Cert.KernelIdeal.τ).loc Cert.KernelIdeal.main_v4_1)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)) (v6 : (c : Dev Cert.KernelIdeal.nD) → Buf (Elt Ideal) ((c.tc : Thread Cert.KernelIdeal.nD Cert.KernelIdeal.τ).loc Cert.KernelIdeal.main_v0_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v4_0) = v1 c
          ∧ r.2.mem ((c.tc : Thread Cert.KernelIdeal.nD Cert.KernelIdeal.τ).loc Cert.KernelIdeal.main_v0_3) = v2 c
          ∧ r.2.mem ((c.tc : Thread Cert.KernelIdeal.nD Cert.KernelIdeal.τ).loc Cert.KernelIdeal.main_v4_1) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_v0_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_v45) = v2 c
          ∧ r.2.mem ((c.tc : Thread Cert.ReferenceIdeal.nD Cert.ReferenceIdeal.τ).loc Cert.ReferenceIdeal.main_v49) = v3 c
          ∧ r.2.mem ((c.tc : Thread Cert.ReferenceIdeal.nD Cert.ReferenceIdeal.τ).loc Cert.ReferenceIdeal.main_v51) = v4 c
          ∧ r.2.mem ((c.tc : Thread Cert.ReferenceIdeal.nD Cert.ReferenceIdeal.τ).loc Cert.ReferenceIdeal.main_v63) = v5 c
          ∧ r.2.mem ((c.tc : Thread Cert.ReferenceIdeal.nD Cert.ReferenceIdeal.τ).loc Cert.ReferenceIdeal.main_v55) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024 : Shape := ⟨2, ![32, 1024]⟩
abbrev S1024x1024 : Shape := ⟨2, ![1024, 1024]⟩
abbrev S1024 : Shape := ⟨1, ![1024]⟩
abbrev S32x1024x1024 : Shape := ⟨3, ![32, 1024, 1024]⟩
abbrev S32x1 : Shape := ⟨2, ![32, 1]⟩
abbrev S_ : Shape := ⟨0, ![]⟩

class Facts : Prop where
  bcast_S_S32x1024 : S_.BroadcastsInDim S32x1024 (![] : Fin 0 → Fin S32x1024.rank)
  reducesTo_S32x1024_S_d0_1 : S32x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S32x1024x1024 : S_.BroadcastsInDim S32x1024x1024 (![] : Fin 0 → Fin S32x1024x1024.rank)
  reducesTo_S32x1024x1024_S_d0_1_2 : S32x1024x1024.ReducesTo [0, 1, 2] S_
  bcast_S_S32x1 : S_.BroadcastsInDim S32x1 (![] : Fin 0 → Fin S32x1.rank)
  reducesTo_S32x1_S_d0_1 : S32x1.ReducesTo [0, 1] S_

variable [Facts]

def fn_part2 {F : FTy → Type} [FloatOps F] (main_arg7 : FVec F S32x1024 .f32) (main_arg8 : FVec F S32x1024 .f32) (main_arg9 : FVec F S32x1 .f32) (main_v33 : IVec S_ 1) : IVec S_ 1 :=
  let main_v34 : FVec F S32x1024 .f32 := Host.absf main_arg7
  let main_cst_12 : FVec F S_ .f32 := constant S_ .f32 0x7F800000#32
  let main_v35 : FVec F S32x1024 .f32 := broadcastInDim S32x1024 ![] bcast_S_S32x1024 main_cst_12
  let main_v36 : IVec S32x1024 1 := cmpf .olt main_v34 main_v35
  let main_c_13 : IVec S_ 1 := constantI S_ 1 1#1
  let main_v37 : IVec S_ 1 := (fun x v => Host.reduce IntOp.andi x v reducesTo_S32x1024_S_d0_1 h_S_) main_v36 main_c_13
  let main_v38 : IVec S_ 1 := andi main_v33 main_v37
  let main_v39 : FVec F S32x1024 .f32 := Host.absf main_arg8
  let main_cst_14 : FVec F S_ .f32 := constant S_ .f32 0x7F800000#32
  let main_v40 : FVec F S32x1024 .f32 := broadcastInDim S32x1024 ![] bcast_S_S32x1024 main_cst_14
  let main_v41 : IVec S32x1024 1 := cmpf .olt main_v39 main_v40
  let main_c_15 : IVec S_ 1 := constantI S_ 1 1#1
  let main_v42 : IVec S_ 1 := (fun x v => Host.reduce IntOp.andi x v reducesTo_S32x1024_S_d0_1 h_S_) main_v41 main_c_15
  let main_v43 : IVec S_ 1 := andi main_v38 main_v42
  let main_v44 : FVec F S32x1 .f32 := Host.absf main_arg9
  let main_cst_16 : FVec F S_ .f32 := constant S_ .f32 0x7F800000#32
  let main_v45 : FVec F S32x1 .f32 := broadcastInDim S32x1 ![] bcast_S_S32x1 main_cst_16
  let main_v46 : IVec S32x1 1 := cmpf .olt main_v44 main_v45
  let main_c_17 : IVec S_ 1 := constantI S_ 1 1#1
  let main_v47 : IVec S_ 1 := (fun x v => Host.reduce IntOp.andi x v reducesTo_S32x1_S_d0_1 h_S_) main_v46 main_c_17
  let main_v48 : IVec S_ 1 := andi main_v43 main_v47
  main_v48

def fn_part1 {F : FTy → Type} [FloatOps F] (main_arg4 : FVec F S32x1024x1024 .f32) (main_arg5 : FVec F S32x1024 .f32) (main_arg6 : FVec F S32x1024x1024 .f32) (main_arg7 : FVec F S32x1024 .f32) (main_arg8 : FVec F S32x1024 .f32) (main_arg9 : FVec F S32x1 .f32) (main_v13 : IVec S_ 1) (main_v16 : IVec S32x1024 1) : IVec S_ 1 :=
  let main_c_5 : IVec S_ 1 := constantI S_ 1 1#1
  let main_v17 : IVec S_ 1 := (fun x v => Host.reduce IntOp.andi x v reducesTo_S32x1024_S_d0_1 h_S_) main_v16 main_c_5
  let main_v18 : IVec S_ 1 := andi main_v13 main_v17
  let main_v19 : FVec F S32x1024x1024 .f32 := Host.absf main_arg4
  let main_cst_6 : FVec F S_ .f32 := constant S_ .f32 0x7F800000#32
  let main_v20 : FVec F S32x1024x1024 .f32 := broadcastInDim S32x1024x1024 ![] bcast_S_S32x1024x1024 main_cst_6
  let main_v21 : IVec S32x1024x1024 1 := cmpf .olt main_v19 main_v20
  let main_c_7 : IVec S_ 1 := constantI S_ 1 1#1
  let main_v22 : IVec S_ 1 := (fun x v => Host.reduce IntOp.andi x v reducesTo_S32x1024x1024_S_d0_1_2 h_S_) main_v21 main_c_7
  let main_v23 : IVec S_ 1 := andi main_v18 main_v22
  let main_v24 : FVec F S32x1024 .f32 := Host.absf main_arg5
  let main_cst_8 : FVec F S_ .f32 := constant S_ .f32 0x7F800000#32
  let main_v25 : FVec F S32x1024 .f32 := broadcastInDim S32x1024 ![] bcast_S_S32x1024 main_cst_8
  let main_v26 : IVec S32x1024 1 := cmpf .olt main_v24 main_v25
  let main_c_9 : IVec S_ 1 := constantI S_ 1 1#1
  let main_v27 : IVec S_ 1 := (fun x v => Host.reduce IntOp.andi x v reducesTo_S32x1024_S_d0_1 h_S_) main_v26 main_c_9
  let main_v28 : IVec S_ 1 := andi main_v23 main_v27
  let main_v29 : FVec F S32x1024x1024 .f32 := Host.absf main_arg6
  let main_cst_10 : FVec F S_ .f32 := constant S_ .f32 0x7F800000#32
  let main_v30 : FVec F S32x1024x1024 .f32 := broadcastInDim S32x1024x1024 ![] bcast_S_S32x1024x1024 main_cst_10
  let main_v31 : IVec S32x1024x1024 1 := cmpf .olt main_v29 main_v30
  let main_c_11 : IVec S_ 1 := constantI S_ 1 1#1
  let main_v32 : IVec S_ 1 := (fun x v => Host.reduce IntOp.andi x v reducesTo_S32x1024x1024_S_d0_1_2 h_S_) main_v31 main_c_11
  let main_v33 : IVec S_ 1 := andi main_v28 main_v32
  fn_part2 (F := F) main_arg7 main_arg8 main_arg9 main_v33

def fn {F : FTy → Type} [FloatOps F] (main_arg0 : FVec F S32x1024 .f32) (main_arg1 : FVec F S1024x1024 .f32) (main_arg2 : FVec F S1024 .f32) (main_arg3 : FVec F S32x1024 .f32) (main_arg4 : FVec F S32x1024x1024 .f32) (main_arg5 : FVec F S32x1024 .f32) (main_arg6 : FVec F S32x1024x1024 .f32) (main_arg7 : FVec F S32x1024 .f32) (main_arg8 : FVec F S32x1024 .f32) (main_arg9 : FVec F S32x1 .f32) : IVec S_ 1 :=
  let main_v0 : FVec F S32x1024 .f32 := Host.absf main_arg0
  let main_cst : FVec F S_ .f32 := constant S_ .f32 0x7F800000#32
  let main_v1 : FVec F S32x1024 .f32 := broadcastInDim S32x1024 ![] bcast_S_S32x1024 main_cst
  let main_v2 : IVec S32x1024 1 := cmpf .olt main_v0 main_v1
  let main_c : IVec S_ 1 := constantI S_ 1 1#1
  let main_v3 : IVec S_ 1 := (fun x v => Host.reduce IntOp.andi x v reducesTo_S32x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S32x1024 .f32 := Host.absf main_arg3
  let main_cst_4 : FVec F S_ .f32 := constant S_ .f32 0x7F800000#32
  let main_v15 : FVec F S32x1024 .f32 := broadcastInDim S32x1024 ![] bcast_S_S32x1024 main_cst_4
  let main_v16 : IVec S32x1024 1 := cmpf .olt main_v14 main_v15
  fn_part1 (F := F) main_arg4 main_arg5 main_arg6 main_arg7 main_arg8 main_arg9 main_v13 main_v16
-- ==== Kernel.lean ====
abbrev S32x1024 : Shape := ⟨2, ![32, 1024]⟩
abbrev S1024x1024 : Shape := ⟨2, ![1024, 1024]⟩
abbrev S1024 : Shape := ⟨1, ![1024]⟩
abbrev S32x1024x1024 : Shape := ⟨3, ![32, 1024, 1024]⟩
abbrev S32x1 : Shape := ⟨2, ![32, 1]⟩
abbrev S1x1024 : Shape := ⟨2, ![1, 1024]⟩
abbrev S32x1x1024 : Shape := ⟨3, ![32, 1, 1024]⟩
abbrev S1x1x1024 : Shape := ⟨3, ![1, 1, 1024]⟩
abbrev S1x1x256 : Shape := ⟨3, ![1, 1, 256]⟩
abbrev S1x1024x256 : Shape := ⟨3, ![1, 1024, 256]⟩
abbrev S1x256 : Shape := ⟨2, ![1, 256]⟩
abbrev S1024x256 : Shape := ⟨2, ![1024, 256]⟩
abbrev S1024x1 : Shape := ⟨2, ![1024, 1]⟩

abbrev nBuf : Space → Nat
  | .hbm => 22
  | .vmem => 29
  | .smem => 0
  | _ => 0

abbrev bufTy : (tb : Table) → Fin (tcTables nBuf tb) → BufTy
  | .hbm, ⟨0, _⟩ => ⟨S32x1024, .f32⟩
  | .hbm, ⟨1, _⟩ => ⟨S1024x1024, .f32⟩
  | .hbm, ⟨2, _⟩ => ⟨S1024, .f32⟩
  | .hbm, ⟨3, _⟩ => ⟨S32x1024, .f32⟩
  | .hbm, ⟨4, _⟩ => ⟨S32x1024x1024, .f32⟩
  | .hbm, ⟨5, _⟩ => ⟨S32x1024, .f32⟩
  | .hbm, ⟨6, _⟩ => ⟨S32x1024x1024, .f32⟩
  | .hbm, ⟨7, _⟩ => ⟨S32x1024, .f32⟩
  | .hbm, ⟨8, _⟩ => ⟨S32x1024, .f32⟩
  | .hbm, ⟨9, _⟩ => ⟨S32x1, .f32⟩
  | .hbm, ⟨10, _⟩ => ⟨S32x1024, .f32⟩
  | .hbm, ⟨11, _⟩ => ⟨S32x1024, .f32⟩
  | .hbm, ⟨12, _⟩ => ⟨S32x1024, .f32⟩
  | .hbm, ⟨13, _⟩ => ⟨S32x1024, .f32⟩
  | .hbm, ⟨14, _⟩ => ⟨S32x1024, .f32⟩
  | .hbm, ⟨15, _⟩ => ⟨S32x1024, .f32⟩
  | .hbm, ⟨16, _⟩ => ⟨S32x1, .f32⟩
  | .hbm, ⟨17, _⟩ => ⟨S32x1x1024, .f32⟩
  | .hbm, ⟨18, _⟩ => ⟨S32x1x1024, .f32⟩
  | .hbm, ⟨19, _⟩ => ⟨S32x1x1024, .f32⟩
  | .hbm, ⟨20, _⟩ => ⟨S32x1024x1024, .f32⟩
  | .hbm, ⟨21, _⟩ => ⟨S32x1024x1024, .f32⟩
  | .local _ .vmem, ⟨0, _⟩ => ⟨S32x1024, .f32⟩
  | .local _ .vmem, ⟨1, _⟩ => ⟨S1024x1024, .f32⟩
  | .local _ .vmem, ⟨2, _⟩ => ⟨S1024, .f32⟩
  | .local _ .vmem, ⟨3, _⟩ => ⟨S32x1024, .f32⟩
  | .local _ .vmem, ⟨4, _⟩ => ⟨S32x1024, .f32⟩
  | .local _ .vmem, ⟨5, _⟩ => ⟨S32x1024, .f32⟩
  | .local _ .vmem, ⟨6, _⟩ => ⟨S32x1024, .f32⟩
  | .local _ .vmem, ⟨7, _⟩ => ⟨S32x1, .f32⟩
  | .local _ .vmem, ⟨8, _⟩ => ⟨S32x1024, .f32⟩
  | .local _ .vmem, ⟨9, _⟩ => ⟨S32x1024, .f32⟩
  | .local _ .vmem, ⟨10, _⟩ => ⟨S32x1024, .f32⟩
  | .local _ .vmem, ⟨11, _⟩ => ⟨S32x1024, .f32⟩
  | .local _ .vmem, ⟨12, _⟩ => ⟨S32x1024, .f32⟩
  | .local _ .vmem, ⟨13, _⟩ => ⟨S32x1024, .f32⟩
  | .local _ .vmem, ⟨14, _⟩ => ⟨S32x1, .f32⟩
  | .local _ .vmem, ⟨15, _⟩ => ⟨S1x1x1024, .f32⟩
  | .local _ .vmem, ⟨16, _⟩ => ⟨S1x1x1024, .f32⟩
  | .local _ .vmem, ⟨17, _⟩ => ⟨S1x1x256, .f32⟩
  | .local _ .vmem, ⟨18, _⟩ => ⟨S1x1x256, .f32⟩
  | .local _ .vmem, ⟨19, _⟩ => ⟨S1x1x256, .f32⟩
  | .local _ .vmem, ⟨20, _⟩ => ⟨S1x1x256, .f32⟩
  | .local _ .vmem, ⟨21, _⟩ => ⟨S1x1024x256, .f32⟩
  | .local _ .vmem, ⟨22, _⟩ => ⟨S1x1024x256, .f32⟩
  | .local _ .vmem, ⟨23, _⟩ => ⟨S1x1024x256, .f32⟩
  | .local _ .vmem, ⟨24, _⟩ => ⟨S1x1024x256, .f32⟩
  | .local _ .vmem, ⟨25, _⟩ => ⟨S1x1024x256, .f32⟩
  | .local _ .vmem, ⟨26, _⟩ => ⟨S1x1024x256, .f32⟩
  | .local _ .vmem, ⟨27, _⟩ => ⟨S1x1024x256, .f32⟩
  | .local _ .vmem, ⟨28, _⟩ => ⟨S1x1024x256, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev main_v0_5 : Ref sig .tc := ⟨.hbm, 15, rfl⟩
abbrev main_v0_6 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4_0 : Ref sig .tc := ⟨.hbm, 20, rfl⟩
abbrev main_v4_1 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg3_1 : Ref sig .tc := ⟨.vmem, 22, rfl⟩
abbrev cc1_stg4_0 : Ref sig .tc := ⟨.vmem, 23, rfl⟩
abbrev cc1_stg4_1 : Ref sig .tc := ⟨.vmem, 24, rfl⟩
abbrev cc1_stg5_0 : Ref sig .tc := ⟨.vmem, 25, rfl⟩
abbrev cc1_stg5_1 : Ref sig .tc := ⟨.vmem, 26, rfl⟩
abbrev cc1_stg6_0 : Ref sig .tc := ⟨.vmem, 27, rfl⟩
abbrev cc1_stg6_1 : Ref sig .tc := ⟨.vmem, 28, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem2_1 : DmaSem sig := 20
abbrev cc1_sem3_0 : DmaSem sig := 21
abbrev cc1_sem3_1 : DmaSem sig := 22
abbrev cc1_sem4_0 : DmaSem sig := 23
abbrev cc1_sem4_1 : DmaSem sig := 24
abbrev cc1_sem5_0 : DmaSem sig := 25
abbrev cc1_sem5_1 : DmaSem sig := 26
abbrev cc1_sem6_0 : DmaSem sig := 27
abbrev cc1_sem6_1 : DmaSem sig := 28

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S32x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S32x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S32x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S32x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S32x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev grid1 : Pipeline.Grid := ⟨2, ![32, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x1x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x1x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1024x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x1024x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x1024x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x1024x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

class Facts₀ : Prop where
  inb_S32x1024_S32x1024_0_0 : ∀ a, (![0, 0] : Fin 2 → Nat) a + S32x1024.size a ≤ S32x1024.size a
  h_S32x1024 : 0 < S32x1024.numel
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S32x1024 : S1x1024.Broadcasts S32x1024
  inb_S32x1_S32x1_0_0 : ∀ a, (![0, 0] : Fin 2 → Nat) a + S32x1.size a ≤ S32x1.size a
  h_S32x1 : 0 < S32x1.numel
  broadcasts_S32x1_S32x1024 : S32x1.Broadcasts S32x1024
  shapeCasts_S32x1024_S32x1x1024 : S32x1024.ShapeCasts S32x1x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  transposes_S1x1024_p1_0_S1024x1 : S1x1024.Transposes [1, 0] S1024x1
  shapeCasts_S1024x1_S1024x1 : S1024x1.ShapeCasts S1024x1
  broadcasts_S1024x1_S1024x256 : S1024x1.Broadcasts S1024x256
  shapeCasts_S1x256_S1x256 : S1x256.ShapeCasts S1x256
  broadcasts_S1x256_S1024x256 : S1x256.Broadcasts S1024x256
  shapeCasts_S1024x256_S1x1024x256 : S1024x256.ShapeCasts S1x1024x256
  dot_S32x1024_S1024x1024_S32x1024_1_0_0_1_n_n_wf : DotDims.WF S32x1024 S1024x1024 S32x1024 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x1024.size a ≤ S32x1024.size a
  hwx0_0 : ∀ i : grid0.Coords, EltTy.bits .f32 = 32 ∨ (Rect.block (s := S32x1024) S32x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x1024.size a ≤ S32x1024.size a
  hwx0_3 : ∀ i : grid0.Coords, EltTy.bits .f32 = 32 ∨ (Rect.block (s := S32x1024) S32x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x1024.size a ≤ S32x1024.size a
  hwx0_4 : ∀ i : grid0.Coords, EltTy.bits .f32 = 32 ∨ (Rect.block (s := S32x1024) S32x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x1024.size a ≤ S32x1024.size a
  hwx0_5 : ∀ i : grid0.Coords, EltTy.bits .f32 = 32 ∨ (Rect.block (s := S32x1024) S32x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32x1024.size a ≤ S32x1024.size a
  hwx0_6 : ∀ i : grid0.Coords, EltTy.bits .f32 = 32 ∨ (Rect.block (s := S32x1024) S32x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x1.size a ≤ S32x1.size a
  hwx0_7 : ∀ i : grid0.Coords, EltTy.bits .f32 = 32 ∨ (Rect.block (s := S32x1) S32x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S32x1024.size a ≤ S32x1024.size a
  hwx0_8 : ∀ i : grid0.Coords, EltTy.bits .f32 = 32 ∨ (Rect.block (s := S32x1024) S32x1024.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S32x1024.size a ≤ S32x1024.size a
  hwx0_9 : ∀ i : grid0.Coords, EltTy.bits .f32 = 32 ∨ (Rect.block (s := S32x1024) S32x1024.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S32x1024.size a ≤ S32x1024.size a
  hwx0_10 : ∀ i : grid0.Coords, EltTy.bits .f32 = 32 ∨ (Rect.block (s := S32x1024) S32x1024.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S32x1024.size a ≤ S32x1024.size a
  hwx0_11 : ∀ i : grid0.Coords, EltTy.bits .f32 = 32 ∨ (Rect.block (s := S32x1024) S32x1024.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S32x1024.size a ≤ S32x1024.size a
  hwx0_12 : ∀ i : grid0.Coords, EltTy.bits .f32 = 32 ∨ (Rect.block (s := S32x1024) S32x1024.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S32x1024.size a ≤ S32x1024.size a
  hwx0_13 : ∀ i : grid0.Coords, EltTy.bits .f32 = 32 ∨ (Rect.block (s := S32x1024) S32x1024.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S32x1.size a ≤ S32x1.size a
  hwx0_14 : ∀ i : grid0.Coords, EltTy.bits .f32 = 32 ∨ (Rect.block (s := S32x1) S32x1.size (cc0_transform_14 i) (hinb0_14 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1x1024.size a ≤ S32x1x1024.size a
  hwx1_0 : ∀ i : grid1.Coords, EltTy.bits .f32 = 32 ∨ (Rect.block (s := S32x1x1024) S1x1x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x256.size a ≤ S32x1x1024.size a
  hwx1_1 : ∀ i : grid1.Coords, EltTy.bits .f32 = 32 ∨ (Rect.block (s := S32x1x1024) S1x1x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x256.size a ≤ S32x1x1024.size a
  hwx1_2 : ∀ i : grid1.Coords, EltTy.bits .f32 = 32 ∨ (Rect.block (s := S32x1x1024) S1x1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x256.size a ≤ S32x1024x1024.size a
  hwx1_3 : ∀ i : grid1.Coords, EltTy.bits .f32 = 32 ∨ (Rect.block (s := S32x1024x1024) S1x1024x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1024x256.size a ≤ S32x1024x1024.size a
  hwx1_4 : ∀ i : grid1.Coords, EltTy.bits .f32 = 32 ∨ (Rect.block (s := S32x1024x1024) S1x1024x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1024x256.size a ≤ S32x1024x1024.size a
  hwx1_5 : ∀ i : grid1.Coords, EltTy.bits .f32 = 32 ∨ (Rect.block (s := S32x1024x1024) S1x1024x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x1024x256.size a ≤ S32x1024x1024.size a
  hwx1_6 : ∀ i : grid1.Coords, EltTy.bits .f32 = 32 ∨ (Rect.block (s := S32x1024x1024) S1x1024x256.size (cc1_transform_6 i) (hinb1_6 i)).WholeWords (EltTy.packing .f32)

variable [Facts₀]

def dot_S32x1024_S1024x1024_S32x1024_1_0_0_1_n_n : DotDims S32x1024 S1024x1024 S32x1024 where
  lhsContracting := [1]
  rhsContracting := [0]
  lhsNonContracting := [0]
  rhsNonContracting := [1]
  lhsBatch := []
  rhsBatch := []
  wf := dot_S32x1024_S1024x1024_S32x1024_1_0_0_1_n_n_wf

abbrev win0_0 : Pipeline.Window sig grid0 :=
  Pipeline.Window.ofSpec (Memref.whole main_arg0) S32x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S32x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S32x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S32x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S32x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S32x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v0_0) S32x1024.size cc0_transform_8 reads0_8 true true 1 stage0_8 sem0_8
    hrank0 hreads0_8 hinb0_8 nbuf0_8 (Memref.isWhole_whole _) hwx0_8 hstage0_8

abbrev win0_9 : Pipeline.Window sig grid0 :=
  Pipeline.Window.ofSpec (Memref.whole main_v0_1) S32x1024.size cc0_transform_9 reads0_9 true true 1 stage0_9 sem0_9
    hrank0 hreads0_9 hinb0_9 nbuf0_9 (Memref.isWhole_whole _) hwx0_9 hstage0_9

abbrev win0_10 : Pipeline.Window sig grid0 :=
  Pipeline.Window.ofSpec (Memref.whole main_v0_2) S32x1024.size cc0_transform_10 reads0_10 true true 1 stage0_10 sem0_10
    hrank0 hreads0_10 hinb0_10 nbuf0_10 (Memref.isWhole_whole _) hwx0_10 hstage0_10

abbrev win0_11 : Pipeline.Window sig grid0 :=
  Pipeline.Window.ofSpec (Memref.whole main_v0_3) S32x1024.size cc0_transform_11 reads0_11 true true 1 stage0_11 sem0_11
    hrank0 hreads0_11 hinb0_11 nbuf0_11 (Memref.isWhole_whole _) hwx0_11 hstage0_11

abbrev win0_12 : Pipeline.Window sig grid0 :=
  Pipeline.Window.ofSpec (Memref.whole main_v0_4) S32x1024.size cc0_transform_12 reads0_12 true true 1 stage0_12 sem0_12
    hrank0 hreads0_12 hinb0_12 nbuf0_12 (Memref.isWhole_whole _) hwx0_12 hstage0_12

abbrev win0_13 : Pipeline.Window sig grid0 :=
  Pipeline.Window.ofSpec (Memref.whole main_v0_5) S32x1024.size cc0_transform_13 reads0_13 true true 1 stage0_13 sem0_13
    hrank0 hreads0_13 hinb0_13 nbuf0_13 (Memref.isWhole_whole _) hwx0_13 hstage0_13

abbrev win0_14 : Pipeline.Window sig grid0 :=
  Pipeline.Window.ofSpec (Memref.whole main_v0_6) S32x1.size cc0_transform_14 reads0_14 true true 1 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

abbrev win1_0 : Pipeline.Window sig grid1 :=
  Pipeline.Window.ofSpec (Memref.whole main_v1) S1x1x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1x1x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x1x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S1x1024x256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S1x1024x256.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v4_0) S1x1024x256.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v4_1) S1x1024x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S32x1024 : Shape := ⟨2, ![32, 1024]⟩
abbrev S1024x1024 : Shape := ⟨2, ![1024, 1024]⟩
abbrev S1024 : Shape := ⟨1, ![1024]⟩
abbrev S32x1024x1024 : Shape := ⟨3, ![32, 1024, 1024]⟩
abbrev S32x1 : Shape := ⟨2, ![32, 1]⟩
abbrev S1x1024 : Shape := ⟨2, ![1, 1024]⟩
abbrev S_ : Shape := ⟨0, ![]⟩
abbrev S32x1024x1 : Shape := ⟨3, ![32, 1024, 1]⟩
abbrev S32x1x1024 : Shape := ⟨3, ![32, 1, 1024]⟩

abbrev nBuf : Space → Nat
  | .hbm => 88
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S1024x1024, .f32⟩
  | .hbm, ⟨2, _⟩ => ⟨S1024, .f32⟩
  | .hbm, ⟨3, _⟩ => ⟨S32x1024, .f32⟩
  | .hbm, ⟨4, _⟩ => ⟨S32x1024x1024, .f32⟩
  | .hbm, ⟨5, _⟩ => ⟨S32x1024, .f32⟩
  | .hbm, ⟨6, _⟩ => ⟨S32x1024x1024, .f32⟩
  | .hbm, ⟨7, _⟩ => ⟨S32x1024, .f32⟩
  | .hbm, ⟨8, _⟩ => ⟨S32x1024, .f32⟩
  | .hbm, ⟨9, _⟩ => ⟨S32x1, .f32⟩
  | .hbm, ⟨10, _⟩ => ⟨S32x1024, .f32⟩
  | .hbm, ⟨11, _⟩ => ⟨S1x1024, .f32⟩
  | .hbm, ⟨12, _⟩ => ⟨S32x1024, .f32⟩
  | .hbm, ⟨13, _⟩ => ⟨S32x1024, .f32⟩
  | .hbm, ⟨14, _⟩ => ⟨S_, .f32⟩
  | .hbm, ⟨15, _⟩ => ⟨S32x1024, .f32⟩
  | .hbm, ⟨16, _⟩ => ⟨S32x1024, .f32⟩
  | .hbm, ⟨17, _⟩ => ⟨S32x1024, .f32⟩
  | .hbm, ⟨18, _⟩ => ⟨S_, .f32⟩
  | .hbm, ⟨19, _⟩ => ⟨S32x1024, .f32⟩
  | .hbm, ⟨20, _⟩ => ⟨S32x1024, .f32⟩
  | .hbm, ⟨21, _⟩ => ⟨S32x1024, .f32⟩
  | .hbm, ⟨22, _⟩ => ⟨S32x1024, .f32⟩
  | .hbm, ⟨23, _⟩ => ⟨S_, .f32⟩
  | .hbm, ⟨24, _⟩ => ⟨S32x1024, .f32⟩
  | .hbm, ⟨25, _⟩ => ⟨S32x1024, .f32⟩
  | .hbm, ⟨26, _⟩ => ⟨S_, .f32⟩
  | .hbm, ⟨27, _⟩ => ⟨S32x1024, .f32⟩
  | .hbm, ⟨28, _⟩ => ⟨S32x1024, .f32⟩
  | .hbm, ⟨29, _⟩ => ⟨S_, .f32⟩
  | .hbm, ⟨30, _⟩ => ⟨S32x1024, .f32⟩
  | .hbm, ⟨31, _⟩ => ⟨S32x1024, .f32⟩
  | .hbm, ⟨32, _⟩ => ⟨S32x1024, .f32⟩
  | .hbm, ⟨33, _⟩ => ⟨S_, .f32⟩
  | .hbm, ⟨34, _⟩ => ⟨S32x1024, .f32⟩
  | .hbm, ⟨35, _⟩ => ⟨S32x1024, .f32⟩
  | .hbm, ⟨36, _⟩ => ⟨S32x1024x1, .f32⟩
  | .hbm, ⟨37, _⟩ => ⟨S32x1x1024, .f32⟩
  | .hbm, ⟨38, _⟩ => ⟨S32x1024x1024, .f32⟩
  | .hbm, ⟨39, _⟩ => ⟨S32x1024x1024, .f32⟩
  | .hbm, ⟨40, _⟩ => ⟨S32x1024x1024, .f32⟩
  | .hbm, ⟨41, _⟩ => ⟨S32x1024x1, .f32⟩
  | .hbm, ⟨42, _⟩ => ⟨S32x1024x1024, .f32⟩
  | .hbm, ⟨43, _⟩ => ⟨S_, .f32⟩
  | .hbm, ⟨44, _⟩ => ⟨S32x1024, .f32⟩
  | .hbm, ⟨45, _⟩ => ⟨S_, .f32⟩
  | .hbm, ⟨46, _⟩ => ⟨S32x1024x1024, .f32⟩
  | .hbm, ⟨47, _⟩ => ⟨S32x1024x1024, .f32⟩
  | .hbm, ⟨48, _⟩ => ⟨S32x1024x1024, .f32⟩
  | .hbm, ⟨49, _⟩ => ⟨S_, .f32⟩
  | .hbm, ⟨50, _⟩ => ⟨S32x1024, .f32⟩
  | .hbm, ⟨51, _⟩ => ⟨S32x1024, .f32⟩
  | .hbm, ⟨52, _⟩ => ⟨S32x1024, .f32⟩
  | .hbm, ⟨53, _⟩ => ⟨S32x1x1024, .f32⟩
  | .hbm, ⟨54, _⟩ => ⟨S32x1024x1024, .f32⟩
  | .hbm, ⟨55, _⟩ => ⟨S32x1024x1024, .f32⟩
  | .hbm, ⟨56, _⟩ => ⟨S32x1024x1024, .f32⟩
  | .hbm, ⟨57, _⟩ => ⟨S32x1024, .f32⟩
  | .hbm, ⟨58, _⟩ => ⟨S32x1024, .f32⟩
  | .hbm, ⟨59, _⟩ => ⟨S_, .f32⟩
  | .hbm, ⟨60, _⟩ => ⟨S32x1024x1024, .f32⟩
  | .hbm, ⟨61, _⟩ => ⟨S32x1024x1024, .f32⟩
  | .hbm, ⟨62, _⟩ => ⟨S32x1024x1024, .f32⟩
  | .hbm, ⟨63, _⟩ => ⟨S_, .f32⟩
  | .hbm, ⟨64, _⟩ => ⟨S32x1024, .f32⟩
  | .hbm, ⟨65, _⟩ => ⟨S32x1024, .f32⟩
  | .hbm, ⟨66, _⟩ => ⟨S32x1024, .f32⟩
  | .hbm, ⟨67, _⟩ => ⟨S32x1x1024, .f32⟩
  | .hbm, ⟨68, _⟩ => ⟨S32x1024x1024, .f32⟩
  | .hbm, ⟨69, _⟩ => ⟨S32x1024x1024, .f32⟩
  | .hbm, ⟨70, _⟩ => ⟨S32x1024x1024, .f32⟩
  | .hbm, ⟨71, _⟩ => ⟨S32x1024, .f32⟩
  | .hbm, ⟨72, _⟩ => ⟨S32x1024, .f32⟩
  | .hbm, ⟨73, _⟩ => ⟨S_, .f32⟩
  | .hbm, ⟨74, _⟩ => ⟨S32x1, .f32⟩
  | .hbm, ⟨75, _⟩ => ⟨S32x1, .f32⟩
  | .hbm, ⟨76, _⟩ => ⟨S_, .f32⟩
  | .hbm, ⟨77, _⟩ => ⟨S32x1, .f32⟩
  | .hbm, ⟨78, _⟩ => ⟨S32x1, .f32⟩
  | .hbm, ⟨79, _⟩ => ⟨S32x1, .f32⟩
  | .hbm, ⟨80, _⟩ => ⟨S32x1024, .f32⟩
  | .hbm, ⟨81, _⟩ => ⟨S32x1024, .f32⟩
  | .hbm, ⟨82, _⟩ => ⟨S_, .f32⟩
  | .hbm, ⟨83, _⟩ => ⟨S32x1, .f32⟩
  | .hbm, ⟨84, _⟩ => ⟨S32x1, .f32⟩
  | .hbm, ⟨85, _⟩ => ⟨S32x1024, .f32⟩
  | .hbm, ⟨86, _⟩ => ⟨S32x1024, .f32⟩
  | .hbm, ⟨87, _⟩ => ⟨S32x1024, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_cst_3 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev main_cst_6 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_7 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_8 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_9 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_10 : Ref sig .tc := ⟨.hbm, 73, rfl⟩
abbrev main_v52 : Ref sig .tc := ⟨.hbm, 74, rfl⟩
abbrev main_v53 : Ref sig .tc := ⟨.hbm, 75, rfl⟩
abbrev main_cst_11 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_12 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S32x1024_0_1 : S1x1024.BroadcastsInDim S32x1024 (![0, 1] : Fin 2 → Fin S32x1024.rank)
  bcast_S_S32x1024 : S_.BroadcastsInDim S32x1024 (![] : Fin 0 → Fin S32x1024.rank)
  bcast_S32x1024_S32x1024x1_0_1 : S32x1024.BroadcastsInDim S32x1024x1 (![0, 1] : Fin 2 → Fin S32x1024x1.rank)
  bcast_S32x1024_S32x1x1024_0_2 : S32x1024.BroadcastsInDim S32x1x1024 (![0, 2] : Fin 2 → Fin S32x1x1024.rank)
  bcast_S32x1024x1_S32x1024x1024_0_1_2 : S32x1024x1.BroadcastsInDim S32x1024x1024 (![0, 1, 2] : Fin 3 → Fin S32x1024x1024.rank)
  bcast_S32x1x1024_S32x1024x1024_0_1_2 : S32x1x1024.BroadcastsInDim S32x1024x1024 (![0, 1, 2] : Fin 3 → Fin S32x1024x1024.rank)
  bcast_S_S32x1024x1024 : S_.BroadcastsInDim S32x1024x1024 (![] : Fin 0 → Fin S32x1024x1024.rank)
  bcast_S_S32x1 : S_.BroadcastsInDim S32x1 (![] : Fin 0 → Fin S32x1.rank)
  bcast_S32x1_S32x1024_0_1 : S32x1.BroadcastsInDim S32x1024 (![0, 1] : Fin 2 → Fin S32x1024.rank)
  dot_S32x1024_S1024x1024_S32x1024_1_0_0_1_n_n_wf : DotDims.WF S32x1024 S1024x1024 S32x1024 [1] [0] [0] [1] [] []

variable [Facts₀]

def dot_S32x1024_S1024x1024_S32x1024_1_0_0_1_n_n : DotDims S32x1024 S1024x1024 S32x1024 where
  lhsContracting := [1]
  rhsContracting := [0]
  lhsNonContracting := [0]
  rhsNonContracting := [1]
  lhsBatch := []
  rhsBatch := []
  wf := dot_S32x1024_S1024x1024_S32x1024_1_0_0_1_n_n_wf

class Facts : Prop extends Facts₀ where

variable [Facts]
-- ==== Proof.Small.lean ====
/-
  The first kernel region has ONE grid point, and at it every window's block is the whole array: each input block is
  the array the region finds, each output block is the whole output. So what the region leaves in an output array is the
  body's value for that output — one whole-array term of the input arrays — with nothing to piece together:

    window 8  (the spike s)            the logistic of the pre-activation,
    window 9  (sg = s·(1 − s)),        window 10 (ds_du = β·sg),
    window 11 (the bias trace E_b2),   window 12 (Rh_b2),
    window 13 (g_bar2),                window 14 (the ratio trace r2).

  Stated at any float instance and at any contents `V` the region is entered with.
-/
import proofs.«163380_j30940944400973_1_alg».proof.Proof.Gen.KernelIdeal.Frame
import Idealize.ShloMosaic.Lib.Pipeline.Value

set_option maxRecDepth 16384

noncomputable section

namespace Cert.KernelIdeal.Small

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (V : (c : Dev nD) → (b : Ref sig .tc) → Buf (Elt F) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-! ## Every window's one block sits at the origin -/

theorem origin0_0 : ∀ t : Fin cfg0.N, win0_0.index t (0 : Fin 2) = 0 ∧ win0_0.index t (1 : Fin 2) = 0 :=
  (by decide +kernel : ∀ t : Fin grid0.N, _)
theorem origin0_1 : ∀ t : Fin cfg0.N, win0_1.index t (0 : Fin 2) = 0 ∧ win0_1.index t (1 : Fin 2) = 0 :=
  (by decide +kernel : ∀ t : Fin grid0.N, _)
theorem origin0_2 : ∀ t : Fin cfg0.N, win0_2.index t (0 : Fin 1) = 0 :=
  (by decide +kernel : ∀ t : Fin grid0.N, _)
theorem origin0_3 : ∀ t : Fin cfg0.N, win0_3.index t (0 : Fin 2) = 0 ∧ win0_3.index t (1 : Fin 2) = 0 :=
  (by decide +kernel : ∀ t : Fin grid0.N, _)
theorem origin0_4 : ∀ t : Fin cfg0.N, win0_4.index t (0 : Fin 2) = 0 ∧ win0_4.index t (1 : Fin 2) = 0 :=
  (by decide +kernel : ∀ t : Fin grid0.N, _)
theorem origin0_5 : ∀ t : Fin cfg0.N, win0_5.index t (0 : Fin 2) = 0 ∧ win0_5.index t (1 : Fin 2) = 0 :=
  (by decide +kernel : ∀ t : Fin grid0.N, _)
theorem origin0_6 : ∀ t : Fin cfg0.N, win0_6.index t (0 : Fin 2) = 0 ∧ win0_6.index t (1 : Fin 2) = 0 :=
  (by decide +kernel : ∀ t : Fin grid0.N, _)
theorem origin0_7 : ∀ t : Fin cfg0.N, win0_7.index t (0 : Fin 2) = 0 ∧ win0_7.index t (1 : Fin 2) = 0 :=
  (by decide +kernel : ∀ t : Fin grid0.N, _)
theorem origin0_8 : ∀ t : Fin cfg0.N, win0_8.index t (0 : Fin 2) = 0 ∧ win0_8.index t (1 : Fin 2) = 0 :=
  (by decide +kernel : ∀ t : Fin grid0.N, _)
theorem origin0_9 : ∀ t : Fin cfg0.N, win0_9.index t (0 : Fin 2) = 0 ∧ win0_9.index t (1 : Fin 2) = 0 :=
  (by decide +kernel : ∀ t : Fin grid0.N, _)
theorem origin0_10 : ∀ t : Fin cfg0.N, win0_10.index t (0 : Fin 2) = 0 ∧ win0_10.index t (1 : Fin 2) = 0 :=
  (by decide +kernel : ∀ t : Fin grid0.N, _)
theorem origin0_11 : ∀ t : Fin cfg0.N, win0_11.index t (0 : Fin 2) = 0 ∧ win0_11.index t (1 : Fin 2) = 0 :=
  (by decide +kernel : ∀ t : Fin grid0.N, _)
theorem origin0_12 : ∀ t : Fin cfg0.N, win0_12.index t (0 : Fin 2) = 0 ∧ win0_12.index t (1 : Fin 2) = 0 :=
  (by decide +kernel : ∀ t : Fin grid0.N, _)
theorem origin0_13 : ∀ t : Fin cfg0.N, win0_13.index t (0 : Fin 2) = 0 ∧ win0_13.index t (1 : Fin 2) = 0 :=
  (by decide +kernel : ∀ t : Fin grid0.N, _)
theorem origin0_14 : ∀ t : Fin cfg0.N, win0_14.index t (0 : Fin 2) = 0 ∧ win0_14.index t (1 : Fin 2) = 0 :=
  (by decide +kernel : ∀ t : Fin grid0.N, _)

/-! ## An input window's block is the array the region finds

A block's coordinate on an axis is (block index) × (block size) + (coordinate inside the block); with the block index
zero that is the coordinate itself. -/

theorem iblk0_0 (c : Dev nD) (t : Fin cfg0.N) : iblk0 V c 0 t = V c main_arg0 := by
  funext y
  show V c main_arg0 (((cfg0.win 0).blk t).view.emb y) = V c main_arg0 y
  refine congrArg (V c main_arg0) ?_
  funext a; apply Fin.ext
  obtain ⟨e0, e1⟩ := origin0_0 t
  match a with
  | ⟨0, _⟩ => show win0_0.index t (0 : Fin 2) * 32 + 1 * (y 0).val = (y 0).val; omega
  | ⟨1, _⟩ => show win0_0.index t (1 : Fin 2) * 1024 + 1 * (y 1).val = (y 1).val; omega

theorem iblk0_1 (c : Dev nD) (t : Fin cfg0.N) : iblk0 V c 1 t = V c main_arg1 := by
  funext y
  show V c main_arg1 (((cfg0.win 1).blk t).view.emb y) = V c main_arg1 y
  refine congrArg (V c main_arg1) ?_
  funext a; apply Fin.ext
  obtain ⟨e0, e1⟩ := origin0_1 t
  match a with
  | ⟨0, _⟩ => show win0_1.index t (0 : Fin 2) * 1024 + 1 * (y 0).val = (y 0).val; omega
  | ⟨1, _⟩ => show win0_1.index t (1 : Fin 2) * 1024 + 1 * (y 1).val = (y 1).val; omega

theorem iblk0_2 (c : Dev nD) (t : Fin cfg0.N) : iblk0 V c 2 t = V c main_arg2 := by
  funext y
  show V c main_arg2 (((cfg0.win 2).blk t).view.emb y) = V c main_arg2 y
  refine congrArg (V c main_arg2) ?_
  funext a; apply Fin.ext
  have e0 := origin0_2 t
  match a with
  | ⟨0, _⟩ => show win0_2.index t (0 : Fin 1) * 1024 + 1 * (y 0).val = (y 0).val; omega

theorem iblk0_3 (c : Dev nD) (t : Fin cfg0.N) : iblk0 V c 3 t = V c main_arg3 := by
  funext y
  show V c main_arg3 (((cfg0.win 3).blk t).view.emb y) = V c main_arg3 y
  refine congrArg (V c main_arg3) ?_
  funext a; apply Fin.ext
  obtain ⟨e0, e1⟩ := origin0_3 t
  match a with
  | ⟨0, _⟩ => show win0_3.index t (0 : Fin 2) * 32 + 1 * (y 0).val = (y 0).val; omega
  | ⟨1, _⟩ => show win0_3.index t (1 : Fin 2) * 1024 + 1 * (y 1).val = (y 1).val; omega

theorem iblk0_4 (c : Dev nD) (t : Fin cfg0.N) : iblk0 V c 4 t = V c main_arg5 := by
  funext y
  show V c main_arg5 (((cfg0.win 4).blk t).view.emb y) = V c main_arg5 y
  refine congrArg (V c main_arg5) ?_
  funext a; apply Fin.ext
  obtain ⟨e0, e1⟩ := origin0_4 t
  match a with
  | ⟨0, _⟩ => show win0_4.index t (0 : Fin 2) * 32 + 1 * (y 0).val = (y 0).val; omega
  | ⟨1, _⟩ => show win0_4.index t (1 : Fin 2) * 1024 + 1 * (y 1).val = (y 1).val; omega

theorem iblk0_5 (c : Dev nD) (t : Fin cfg0.N) : iblk0 V c 5 t = V c main_arg7 := by
  funext y
  show V c main_arg7 (((cfg0.win 5).blk t).view.emb y) = V c main_arg7 y
  refine congrArg (V c main_arg7) ?_
  funext a; apply Fin.ext
  obtain ⟨e0, e1⟩ := origin0_5 t
  match a with
  | ⟨0, _⟩ => show win0_5.index t (0 : Fin 2) * 32 + 1 * (y 0).val = (y 0).val; omega
  | ⟨1, _⟩ => show win0_5.index t (1 : Fin 2) * 1024 + 1 * (y 1).val = (y 1).val; omega

theorem iblk0_6 (c : Dev nD) (t : Fin cfg0.N) : iblk0 V c 6 t = V c main_arg8 := by
  funext y
  show V c main_arg8 (((cfg0.win 6).blk t).view.emb y) = V c main_arg8 y
  refine congrArg (V c main_arg8) ?_
  funext a; apply Fin.ext
  obtain ⟨e0, e1⟩ := origin0_6 t
  match a with
  | ⟨0, _⟩ => show win0_6.index t (0 : Fin 2) * 32 + 1 * (y 0).val = (y 0).val; omega
  | ⟨1, _⟩ => show win0_6.index t (1 : Fin 2) * 1024 + 1 * (y 1).val = (y 1).val; omega

theorem iblk0_7 (c : Dev nD) (t : Fin cfg0.N) : iblk0 V c 7 t = V c main_arg9 := by
  funext y
  show V c main_arg9 (((cfg0.win 7).blk t).view.emb y) = V c main_arg9 y
  refine congrArg (V c main_arg9) ?_
  funext a; apply Fin.ext
  obtain ⟨e0, e1⟩ := origin0_7 t
  match a with
  | ⟨0, _⟩ => show win0_7.index t (0 : Fin 2) * 32 + 1 * (y 0).val = (y 0).val; omega
  | ⟨1, _⟩ => show win0_7.index t (1 : Fin 2) * 1 + 1 * (y 1).val = (y 1).val; omega

/-! ## An output window's write-back is the staging buffer itself, and its one block is the whole array -/

theorem cut0_8 (t : Fin cfg0.N) (P : Vec F S32x1024 .f32) :
    (cfg0.win 8).cut (grid0.coords t) P = ((cfg0.win 8).blk t).view.read (Elt F) P := by
  funext j
  show P j = P (((cfg0.win 8).blk t).view.emb j)
  refine congrArg P ?_
  funext a; apply Fin.ext
  obtain ⟨e0, e1⟩ := origin0_8 t
  match a with
  | ⟨0, _⟩ => show (j 0).val = win0_8.index t (0 : Fin 2) * 32 + 1 * (j 0).val; omega
  | ⟨1, _⟩ => show (j 1).val = win0_8.index t (1 : Fin 2) * 1024 + 1 * (j 1).val; omega

theorem cut0_9 (t : Fin cfg0.N) (P : Vec F S32x1024 .f32) :
    (cfg0.win 9).cut (grid0.coords t) P = ((cfg0.win 9).blk t).view.read (Elt F) P := by
  funext j
  show P j = P (((cfg0.win 9).blk t).view.emb j)
  refine congrArg P ?_
  funext a; apply Fin.ext
  obtain ⟨e0, e1⟩ := origin0_9 t
  match a with
  | ⟨0, _⟩ => show (j 0).val = win0_9.index t (0 : Fin 2) * 32 + 1 * (j 0).val; omega
  | ⟨1, _⟩ => show (j 1).val = win0_9.index t (1 : Fin 2) * 1024 + 1 * (j 1).val; omega

theorem cut0_10 (t : Fin cfg0.N) (P : Vec F S32x1024 .f32) :
    (cfg0.win 10).cut (grid0.coords t) P = ((cfg0.win 10).blk t).view.read (Elt F) P := by
  funext j
  show P j = P (((cfg0.win 10).blk t).view.emb j)
  refine congrArg P ?_
  funext a; apply Fin.ext
  obtain ⟨e0, e1⟩ := origin0_10 t
  match a with
  | ⟨0, _⟩ => show (j 0).val = win0_10.index t (0 : Fin 2) * 32 + 1 * (j 0).val; omega
  | ⟨1, _⟩ => show (j 1).val = win0_10.index t (1 : Fin 2) * 1024 + 1 * (j 1).val; omega

theorem cut0_11 (t : Fin cfg0.N) (P : Vec F S32x1024 .f32) :
    (cfg0.win 11).cut (grid0.coords t) P = ((cfg0.win 11).blk t).view.read (Elt F) P := by
  funext j
  show P j = P (((cfg0.win 11).blk t).view.emb j)
  refine congrArg P ?_
  funext a; apply Fin.ext
  obtain ⟨e0, e1⟩ := origin0_11 t
  match a with
  | ⟨0, _⟩ => show (j 0).val = win0_11.index t (0 : Fin 2) * 32 + 1 * (j 0).val; omega
  | ⟨1, _⟩ => show (j 1).val = win0_11.index t (1 : Fin 2) * 1024 + 1 * (j 1).val; omega

theorem cut0_12 (t : Fin cfg0.N) (P : Vec F S32x1024 .f32) :
    (cfg0.win 12).cut (grid0.coords t) P = ((cfg0.win 12).blk t).view.read (Elt F) P := by
  funext j
  show P j = P (((cfg0.win 12).blk t).view.emb j)
  refine congrArg P ?_
  funext a; apply Fin.ext
  obtain ⟨e0, e1⟩ := origin0_12 t
  match a with
  | ⟨0, _⟩ => show (j 0).val = win0_12.index t (0 : Fin 2) * 32 + 1 * (j 0).val; omega
  | ⟨1, _⟩ => show (j 1).val = win0_12.index t (1 : Fin 2) * 1024 + 1 * (j 1).val; omega

theorem cut0_13 (t : Fin cfg0.N) (P : Vec F S32x1024 .f32) :
    (cfg0.win 13).cut (grid0.coords t) P = ((cfg0.win 13).blk t).view.read (Elt F) P := by
  funext j
  show P j = P (((cfg0.win 13).blk t).view.emb j)
  refine congrArg P ?_
  funext a; apply Fin.ext
  obtain ⟨e0, e1⟩ := origin0_13 t
  match a with
  | ⟨0, _⟩ => show (j 0).val = win0_13.index t (0 : Fin 2) * 32 + 1 * (j 0).val; omega
  | ⟨1, _⟩ => show (j 1).val = win0_13.index t (1 : Fin 2) * 1024 + 1 * (j 1).val; omega

theorem cut0_14 (t : Fin cfg0.N) (P : Vec F S32x1 .f32) :
    (cfg0.win 14).cut (grid0.coords t) P = ((cfg0.win 14).blk t).view.read (Elt F) P := by
  funext j
  show P j = P (((cfg0.win 14).blk t).view.emb j)
  refine congrArg P ?_
  funext a; apply Fin.ext
  obtain ⟨e0, e1⟩ := origin0_14 t
  match a with
  | ⟨0, _⟩ => show (j 0).val = win0_14.index t (0 : Fin 2) * 32 + 1 * (j 0).val; omega
  | ⟨1, _⟩ => show (j 1).val = win0_14.index t (1 : Fin 2) * 1 + 1 * (j 1).val; omega

/-- Every index of a [32, 1024] output array lies in the block of the one grid point. -/
theorem whole0_8 (i : S32x1024.Idx) : ∃ t : Fin cfg0.N, (cfg0.win 8).flush t = true ∧ i ∈ ((cfg0.win 8).blk t).view.set := by
  refine ⟨t0_0, flush0_8 t0_0, ?_⟩
  show i ∈ ((View.whole main_v0_0).slice (win0_8.rect t0_0)).set
  rw [View.set_slice_whole, Rect.mem_set_unit]
  obtain ⟨e0, e1⟩ := origin0_8 t0_0
  intro a
  match a with
  | ⟨0, _⟩ => show win0_8.index t0_0 (0 : Fin 2) * 32 ≤ (i 0).val ∧ (i 0).val < win0_8.index t0_0 (0 : Fin 2) * 32 + 32; have h : (i 0).val < 32 := (i 0).isLt; omega
  | ⟨1, _⟩ => show win0_8.index t0_0 (1 : Fin 2) * 1024 ≤ (i 1).val ∧ (i 1).val < win0_8.index t0_0 (1 : Fin 2) * 1024 + 1024; have h : (i 1).val < 1024 := (i 1).isLt; omega

theorem whole0_9 (i : S32x1024.Idx) : ∃ t : Fin cfg0.N, (cfg0.win 9).flush t = true ∧ i ∈ ((cfg0.win 9).blk t).view.set := by
  refine ⟨t0_0, flush0_9 t0_0, ?_⟩
  show i ∈ ((View.whole main_v0_1).slice (win0_9.rect t0_0)).set
  rw [View.set_slice_whole, Rect.mem_set_unit]
  obtain ⟨e0, e1⟩ := origin0_9 t0_0
  intro a
  match a with
  | ⟨0, _⟩ => show win0_9.index t0_0 (0 : Fin 2) * 32 ≤ (i 0).val ∧ (i 0).val < win0_9.index t0_0 (0 : Fin 2) * 32 + 32; have h : (i 0).val < 32 := (i 0).isLt; omega
  | ⟨1, _⟩ => show win0_9.index t0_0 (1 : Fin 2) * 1024 ≤ (i 1).val ∧ (i 1).val < win0_9.index t0_0 (1 : Fin 2) * 1024 + 1024; have h : (i 1).val < 1024 := (i 1).isLt; omega

theorem whole0_10 (i : S32x1024.Idx) : ∃ t : Fin cfg0.N, (cfg0.win 10).flush t = true ∧ i ∈ ((cfg0.win 10).blk t).view.set := by
  refine ⟨t0_0, flush0_10 t0_0, ?_⟩
  show i ∈ ((View.whole main_v0_2).slice (win0_10.rect t0_0)).set
  rw [View.set_slice_whole, Rect.mem_set_unit]
  obtain ⟨e0, e1⟩ := origin0_10 t0_0
  intro a
  match a with
  | ⟨0, _⟩ => show win0_10.index t0_0 (0 : Fin 2) * 32 ≤ (i 0).val ∧ (i 0).val < win0_10.index t0_0 (0 : Fin 2) * 32 + 32; have h : (i 0).val < 32 := (i 0).isLt; omega
  | ⟨1, _⟩ => show win0_10.index t0_0 (1 : Fin 2) * 1024 ≤ (i 1).val ∧ (i 1).val < win0_10.index t0_0 (1 : Fin 2) * 1024 + 1024; have h : (i 1).val < 1024 := (i 1).isLt; omega

theorem whole0_11 (i : S32x1024.Idx) : ∃ t : Fin cfg0.N, (cfg0.win 11).flush t = true ∧ i ∈ ((cfg0.win 11).blk t).view.set := by
  refine ⟨t0_0, flush0_11 t0_0, ?_⟩
  show i ∈ ((View.whole main_v0_3).slice (win0_11.rect t0_0)).set
  rw [View.set_slice_whole, Rect.mem_set_unit]
  obtain ⟨e0, e1⟩ := origin0_11 t0_0
  intro a
  match a with
  | ⟨0, _⟩ => show win0_11.index t0_0 (0 : Fin 2) * 32 ≤ (i 0).val ∧ (i 0).val < win0_11.index t0_0 (0 : Fin 2) * 32 + 32; have h : (i 0).val < 32 := (i 0).isLt; omega
  | ⟨1, _⟩ => show win0_11.index t0_0 (1 : Fin 2) * 1024 ≤ (i 1).val ∧ (i 1).val < win0_11.index t0_0 (1 : Fin 2) * 1024 + 1024; have h : (i 1).val < 1024 := (i 1).isLt; omega

theorem whole0_12 (i : S32x1024.Idx) : ∃ t : Fin cfg0.N, (cfg0.win 12).flush t = true ∧ i ∈ ((cfg0.win 12).blk t).view.set := by
  refine ⟨t0_0, flush0_12 t0_0, ?_⟩
  show i ∈ ((View.whole main_v0_4).slice (win0_12.rect t0_0)).set
  rw [View.set_slice_whole, Rect.mem_set_unit]
  obtain ⟨e0, e1⟩ := origin0_12 t0_0
  intro a
  match a with
  | ⟨0, _⟩ => show win0_12.index t0_0 (0 : Fin 2) * 32 ≤ (i 0).val ∧ (i 0).val < win0_12.index t0_0 (0 : Fin 2) * 32 + 32; have h : (i 0).val < 32 := (i 0).isLt; omega
  | ⟨1, _⟩ => show win0_12.index t0_0 (1 : Fin 2) * 1024 ≤ (i 1).val ∧ (i 1).val < win0_12.index t0_0 (1 : Fin 2) * 1024 + 1024; have h : (i 1).val < 1024 := (i 1).isLt; omega

theorem whole0_13 (i : S32x1024.Idx) : ∃ t : Fin cfg0.N, (cfg0.win 13).flush t = true ∧ i ∈ ((cfg0.win 13).blk t).view.set := by
  refine ⟨t0_0, flush0_13 t0_0, ?_⟩
  show i ∈ ((View.whole main_v0_5).slice (win0_13.rect t0_0)).set
  rw [View.set_slice_whole, Rect.mem_set_unit]
  obtain ⟨e0, e1⟩ := origin0_13 t0_0
  intro a
  match a with
  | ⟨0, _⟩ => show win0_13.index t0_0 (0 : Fin 2) * 32 ≤ (i 0).val ∧ (i 0).val < win0_13.index t0_0 (0 : Fin 2) * 32 + 32; have h : (i 0).val < 32 := (i 0).isLt; omega
  | ⟨1, _⟩ => show win0_13.index t0_0 (1 : Fin 2) * 1024 ≤ (i 1).val ∧ (i 1).val < win0_13.index t0_0 (1 : Fin 2) * 1024 + 1024; have h : (i 1).val < 1024 := (i 1).isLt; omega

theorem whole0_14 (i : S32x1.Idx) : ∃ t : Fin cfg0.N, (cfg0.win 14).flush t = true ∧ i ∈ ((cfg0.win 14).blk t).view.set := by
  refine ⟨t0_0, flush0_14 t0_0, ?_⟩
  show i ∈ ((View.whole main_v0_6).slice (win0_14.rect t0_0)).set
  rw [View.set_slice_whole, Rect.mem_set_unit]
  obtain ⟨e0, e1⟩ := origin0_14 t0_0
  intro a
  match a with
  | ⟨0, _⟩ => show win0_14.index t0_0 (0 : Fin 2) * 32 ≤ (i 0).val ∧ (i 0).val < win0_14.index t0_0 (0 : Fin 2) * 32 + 32; have h : (i 0).val < 32 := (i 0).isLt; omega
  | ⟨1, _⟩ => show win0_14.index t0_0 (1 : Fin 2) * 1 ≤ (i 1).val ∧ (i 1).val < win0_14.index t0_0 (1 : Fin 2) * 1 + 1; have h : (i 1).val < 1 := (i 1).isLt; omega

/-! ## What the region leaves in each output array -/

/-- The spike `s`. -/
theorem arr0_8 (c : Dev nD) : (dat0 V c).arrAt 8 cfg0.N
    = k0_pay4 (V c main_arg0) (V c main_arg1) (V c main_arg2) (V c main_arg3) :=
  (dat0 V c).arrAt_eq_of_cover 8 _ (fun t _ => by
    show (cfg0.win 8).cut (grid0.coords t) ((dat0 V c).after 8 t) = _
    rw [after0_8]
    unfold out0_8
    rw [View.canon_unit_zero hz2]
    simp only [View.ld_unit_zero (S := S32x1024) hz2, View.ld_unit_zero (S := S1024x1024) hz2, View.ld_unit_zero (S := S1024) hz1]
    rw [iblk0_0 V c t, iblk0_1 V c t, iblk0_2 V c t, iblk0_3 V c t]
    exact cut0_8 t _) whole0_8

/-- `sg = s · (1 − s)`. -/
theorem arr0_9 (c : Dev nD) : (dat0 V c).arrAt 9 cfg0.N
    = k0_pay5 (V c main_arg0) (V c main_arg1) (V c main_arg2) (V c main_arg3) :=
  (dat0 V c).arrAt_eq_of_cover 9 _ (fun t _ => by
    show (cfg0.win 9).cut (grid0.coords t) ((dat0 V c).after 9 t) = _
    rw [after0_9]
    unfold out0_9
    rw [View.canon_unit_zero hz2]
    simp only [View.ld_unit_zero (S := S32x1024) hz2, View.ld_unit_zero (S := S1024x1024) hz2, View.ld_unit_zero (S := S1024) hz1]
    rw [iblk0_0 V c t, iblk0_1 V c t, iblk0_2 V c t, iblk0_3 V c t]
    exact cut0_9 t _) whole0_9

/-- `ds_du = β · sg`. -/
theorem arr0_10 (c : Dev nD) : (dat0 V c).arrAt 10 cfg0.N
    = k0_pay6 (V c main_arg0) (V c main_arg1) (V c main_arg2) (V c main_arg3) :=
  (dat0 V c).arrAt_eq_of_cover 10 _ (fun t _ => by
    show (cfg0.win 10).cut (grid0.coords t) ((dat0 V c).after 10 t) = _
    rw [after0_10]
    unfold out0_10
    rw [View.canon_unit_zero hz2]
    simp only [View.ld_unit_zero (S := S32x1024) hz2, View.ld_unit_zero (S := S1024x1024) hz2, View.ld_unit_zero (S := S1024) hz1]
    rw [iblk0_0 V c t, iblk0_1 V c t, iblk0_2 V c t, iblk0_3 V c t]
    exact cut0_10 t _) whole0_10

/-- The bias trace after its two updates. -/
theorem arr0_11 (c : Dev nD) : (dat0 V c).arrAt 11 cfg0.N = k0_pay8 (V c main_arg5) :=
  (dat0 V c).arrAt_eq_of_cover 11 _ (fun t _ => by
    show (cfg0.win 11).cut (grid0.coords t) ((dat0 V c).after 11 t) = _
    rw [after0_11]
    unfold out0_11
    rw [View.canon_unit_zero hz2]
    simp only [View.ld_unit_zero (S := S32x1024) hz2]
    rw [iblk0_4 V c t]
    exact cut0_11 t _) whole0_11

/-- `Rh_b2`. -/
theorem arr0_12 (c : Dev nD) : (dat0 V c).arrAt 12 cfg0.N
    = k0_pay9 (V c main_arg0) (V c main_arg1) (V c main_arg2) (V c main_arg3) (V c main_arg5) (V c main_arg7) :=
  (dat0 V c).arrAt_eq_of_cover 12 _ (fun t _ => by
    show (cfg0.win 12).cut (grid0.coords t) ((dat0 V c).after 12 t) = _
    rw [after0_12]
    unfold out0_12
    rw [View.canon_unit_zero hz2]
    simp only [View.ld_unit_zero (S := S32x1024) hz2, View.ld_unit_zero (S := S1024x1024) hz2, View.ld_unit_zero (S := S1024) hz1]
    rw [iblk0_0 V c t, iblk0_1 V c t, iblk0_2 V c t, iblk0_3 V c t, iblk0_4 V c t, iblk0_5 V c t]
    exact cut0_12 t _) whole0_12

/-- `g_bar2`. -/
theorem arr0_13 (c : Dev nD) : (dat0 V c).arrAt 13 cfg0.N
    = k0_pay3 (k0_pay6 (V c main_arg0) (V c main_arg1) (V c main_arg2) (V c main_arg3)) (V c main_arg9)
        (Scalar.ofBits .f32 0x3F666666#32) (V c main_arg8) :=
  (dat0 V c).arrAt_eq_of_cover 13 _ (fun t _ => by
    show (cfg0.win 13).cut (grid0.coords t) ((dat0 V c).after 13 t) = _
    rw [after0_13]
    unfold out0_13
    rw [View.canon_unit_zero hz2]
    simp only [View.ld_unit_zero (S := S32x1024) hz2, View.ld_unit_zero (S := S1024x1024) hz2, View.ld_unit_zero (S := S1024) hz1,
      View.ld_unit_zero (S := S32x1) hz2]
    rw [iblk0_0 V c t, iblk0_1 V c t, iblk0_2 V c t, iblk0_3 V c t, iblk0_6 V c t, iblk0_7 V c t]
    exact cut0_13 t _) whole0_13

/-- The ratio trace `r2`. -/
theorem arr0_14 (c : Dev nD) : (dat0 V c).arrAt 14 cfg0.N
    = k0_pay2 (V c main_arg9) (Scalar.ofBits .f32 0x3F666666#32) :=
  (dat0 V c).arrAt_eq_of_cover 14 _ (fun t _ => by
    show (cfg0.win 14).cut (grid0.coords t) ((dat0 V c).after 14 t) = _
    rw [after0_14]
    unfold out0_14
    rw [View.canon_unit_zero hz2]
    simp only [View.ld_unit_zero (S := S32x1) hz2]
    rw [iblk0_7 V c t]
    exact cut0_14 t _) whole0_14

end Cert.KernelIdeal.Small

end
-- ==== Proof.Tile.lean ====
/-
  The second kernel's body at one grid point, read entry by entry.

  At a point it holds one row of `x` as a [1, 1, 1024] block, the matching 256 lanes of `sg` and `ds_du` as [1, 1, 256]
  blocks, and a [1, 1024, 256] tile of each of the two big traces. It turns the row of `x` into a column (drop the unit
  axis, transpose, broadcast along the lanes) and lays `sg` and `ds_du` along the rows; everything after that is
  entry by entry. So at row `p` and lane `q` of the tile, with β the pattern 0x3F666666:

    the column of x      reads  x[p]
    E_W1 = β·E_W + x     reads  β·E_W[p, q] + x[p]
    the stored E_W2      reads  β·(β·E_W[p, q] + x[p]) + x[p]
    the stored Rh_W2     reads  ds_du[q]·Rh_W[p, q] + (ds_du[q]·(β·E_W[p, q] + x[p]) + x[p]·sg[q])

  Stated at any float instance over variables of the literal block types.
-/
import proofs.«163380_j30940944400973_1_alg».proof.Proof.Gen.KernelIdeal.Skeleton
import Idealize.ShloMosaic.Lib.Pipeline.Value
import Idealize.ShloMosaic.Lib.ValueIdx
import Idealize.ShloMosaic.Lib.ValueLayout

noncomputable section

namespace Cert.KernelIdeal.Tile

open Cert.KernelIdeal Cert.KernelIdeal.Gen
open Idealize.ShloMosaic Idealize.ShloMosaic.ValueIdx

variable {F : FTy → Type} [FloatOps F]

/-- A column broadcast along the lanes reads, at (p, q), the column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

variable (xb : Vec F S1x1x1024 .f32) (sgb dsb : Vec F S1x1x256 .f32) (ewb rwb : Vec F S1x1024x256 .f32)

/-- The row of `x` turned into a column and laid along the lanes. -/
theorem column_apply (p : Fin 1024) (q : Fin 256) : k1_pay1 xb (ix2 p q) = xb (ix3 (0 : Fin 1) (0 : Fin 1) p) := by
  unfold k1_pay1
  rw [broadcastTo_a1_ab_apply, shapeCast_self, transpose_ix2_apply, shapeCast_1ab_ab_apply]

/-- The once-updated trace `E_W1 = β·E_W + x`. -/
theorem once_apply (p : Fin 1024) (q : Fin 256) :
    k1_pay2 xb ewb (ix2 p q)
      = FloatOps.addf (FloatOps.mulf (Scalar.ofBits .f32 0x3F666666#32) (ewb (ix3 (0 : Fin 1) p q))) (xb (ix3 (0 : Fin 1) (0 : Fin 1) p)) := by
  unfold k1_pay2
  show FloatOps.addf (FloatOps.mulf (Scalar.ofBits .f32 0x3F666666#32) (shapeCast S1024x256 ewb shapeCasts_S1x1024x256_S1024x256 (ix2 p q))) (k1_pay1 xb (ix2 p q)) = _
  rw [column_apply, shapeCast_1ab_ab_apply]

/-- The stored `E_W2 = β·E_W1 + x`. -/
theorem twice_apply (u : Fin 1) (p : Fin 1024) (q : Fin 256) :
    k1_pay3 xb ewb (ix3 u p q)
      = FloatOps.addf (FloatOps.mulf (Scalar.ofBits .f32 0x3F666666#32)
          (FloatOps.addf (FloatOps.mulf (Scalar.ofBits .f32 0x3F666666#32) (ewb (ix3 (0 : Fin 1) p q))) (xb (ix3 (0 : Fin 1) (0 : Fin 1) p))))
          (xb (ix3 (0 : Fin 1) (0 : Fin 1) p)) := by
  unfold k1_pay3
  rw [shapeCast_ab_1ab_apply]
  show FloatOps.addf (FloatOps.mulf (Scalar.ofBits .f32 0x3F666666#32) (k1_pay2 xb ewb (ix2 p q))) (k1_pay1 xb (ix2 p q)) = _
  rw [once_apply, column_apply]

/-- The stored `Rh_W2 = ds_du·Rh_W + (ds_du·E_W1 + x·sg)`. -/
theorem rh_apply (u : Fin 1) (p : Fin 1024) (q : Fin 256) :
    k1_pay4 xb sgb dsb ewb rwb (ix3 u p q)
      = FloatOps.addf (FloatOps.mulf (dsb (ix3 (0 : Fin 1) (0 : Fin 1) q)) (rwb (ix3 (0 : Fin 1) p q)))
          (FloatOps.addf
            (FloatOps.mulf (dsb (ix3 (0 : Fin 1) (0 : Fin 1) q))
              (FloatOps.addf (FloatOps.mulf (Scalar.ofBits .f32 0x3F666666#32) (ewb (ix3 (0 : Fin 1) p q))) (xb (ix3 (0 : Fin 1) (0 : Fin 1) p))))
            (FloatOps.mulf (xb (ix3 (0 : Fin 1) (0 : Fin 1) p)) (sgb (ix3 (0 : Fin 1) (0 : Fin 1) q)))) := by
  unfold k1_pay4
  rw [shapeCast_ab_1ab_apply]
  show FloatOps.addf
      (FloatOps.mulf (broadcastTo S1024x256 (shapeCast S1x256 (shapeCast S1x256 dsb shapeCasts_S1x1x256_S1x256) shapeCasts_S1x256_S1x256) broadcasts_S1x256_S1024x256 (ix2 p q))
        (shapeCast S1024x256 rwb shapeCasts_S1x1024x256_S1024x256 (ix2 p q)))
      (FloatOps.addf
        (FloatOps.mulf (broadcastTo S1024x256 (shapeCast S1x256 (shapeCast S1x256 dsb shapeCasts_S1x1x256_S1x256) shapeCasts_S1x256_S1x256) broadcasts_S1x256_S1024x256 (ix2 p q))
          (k1_pay2 xb ewb (ix2 p q)))
        (FloatOps.mulf (k1_pay1 xb (ix2 p q))
          (broadcastTo S1024x256 (shapeCast S1x256 (shapeCast S1x256 sgb shapeCasts_S1x1x256_S1x256) shapeCasts_S1x256_S1x256) broadcasts_S1x256_S1024x256 (ix2 p q)))) = _
  rw [broadcastTo_1b_ab_apply, broadcastTo_1b_ab_apply, shapeCast_self, shapeCast_self, shapeCast_1ab_ab_apply, shapeCast_1ab_ab_apply,
    shapeCast_1ab_ab_apply, once_apply, column_apply]

end Cert.KernelIdeal.Tile

end
-- ==== Proof.Spec.lean ====
/-
  The two big traces as whole-array functions, entry by entry.

  The second kernel sees `x`, `sg` and `ds_du` as [32, 1, 1024] arrays (a unit axis put in the middle). For an entry
  (n, p, q) of a [32, 1024, 1024] trace — sample n, input p, output q — the ROW entry of such an array is (n, 0, p) and
  its LANE entry is (n, 0, q). With β the pattern 0x3F666666:

    E_W2 (n, p, q)  = β·(β·E_W (n, p, q) + x (n, 0, p)) + x (n, 0, p)
    Rh_W2 (n, p, q) = ds_du (n, 0, q)·Rh_W (n, p, q)
                        + (ds_du (n, 0, q)·(β·E_W (n, p, q) + x (n, 0, p)) + x (n, 0, p)·sg (n, 0, q))

  No program is mentioned here; both are stated at any float instance.
-/
import Idealize.ShloMosaic.PureOps.Ideal
import Idealize.ShloMosaic.Lib.ValueIdx

noncomputable section

namespace Cert.Spec

open Idealize.ShloMosaic Idealize.ShloMosaic.ValueIdx

variable {F : FTy → Type} [FloatOps F]

/-- The shape of a [32, 1024] array seen with a unit axis in the middle. -/
abbrev Rows : Shape := ⟨3, ![32, 1, 1024]⟩
/-- The shape of a big trace. -/
abbrev Cube : Shape := ⟨3, ![32, 1024, 1024]⟩

/-- The entry of a `Rows` array that an entry of a big trace reads by its sample and its INPUT coordinate. -/
abbrev row (i : Cube.Idx) : Rows.Idx := ix3 (i 0 : Fin 32) (0 : Fin 1) (i 1 : Fin 1024)
/-- The entry of a `Rows` array that an entry of a big trace reads by its sample and its OUTPUT coordinate. -/
abbrev lane (i : Cube.Idx) : Rows.Idx := ix3 (i 0 : Fin 32) (0 : Fin 1) (i 2 : Fin 1024)

/-- The weight trace after its two updates. -/
def traceE (x3 : Rows.Idx → F .f32) (ew : Cube.Idx → F .f32) : Cube.Idx → F .f32 := fun i =>
  FloatOps.addf (FloatOps.mulf (Scalar.ofBits .f32 0x3F666666#32)
    (FloatOps.addf (FloatOps.mulf (Scalar.ofBits .f32 0x3F666666#32) (ew i)) (x3 (row i)))) (x3 (row i))

/-- The weight's second-order trace. -/
def traceR (x3 sg3 ds3 : Rows.Idx → F .f32) (ew rw : Cube.Idx → F .f32) : Cube.Idx → F .f32 := fun i =>
  FloatOps.addf (FloatOps.mulf (ds3 (lane i)) (rw i))
    (FloatOps.addf
      (FloatOps.mulf (ds3 (lane i)) (FloatOps.addf (FloatOps.mulf (Scalar.ofBits .f32 0x3F666666#32) (ew i)) (x3 (row i))))
      (FloatOps.mulf (x3 (row i)) (sg3 (lane i))))

end Cert.Spec

end
-- ==== Proof.Big.lean ====
/-
  The second kernel region: a 32 × 4 grid, one sample and one band of 256 output lanes per point. Every window's block
  index is (sample, 0, band) — band 0 for the row of `x`, which spans all 1024 inputs — so at a point the blocks of
  `x`, `sg`, `ds_du` and of the two traces are the restrictions, to that sample and that band, of the arrays the
  region finds. Read entry by entry (the tile lemmas), what a point writes back is therefore its block of ONE
  whole-array function of those arrays: `traceE` for the weight trace, `traceR` for the second-order trace. The 128
  blocks tile the [32, 1024, 1024] array, so the array ends holding that function.

  Stated at any float instance and at any contents `V` the region is entered with.
-/
import proofs.«163380_j30940944400973_1_alg».proof.Proof.Gen.KernelIdeal.Frame
import proofs.«163380_j30940944400973_1_alg».proof.Proof.Tile
import proofs.«163380_j30940944400973_1_alg».proof.Proof.Spec
import Idealize.ShloMosaic.Lib.Pipeline.Value

set_option maxRecDepth 16384

noncomputable section

namespace Cert.KernelIdeal.Big

open Cert.KernelIdeal Cert.KernelIdeal.Gen Cert.Spec
open Idealize.ShloMosaic Idealize.ShloMosaic.TcCoe Idealize.SL.Sem Idealize.ShloMosaic.ValueIdx
open Idealize.ShloMosaic.Pipeline (Dat Cfg Window)

variable {F : FTy → Type} [FloatOps F]

theorem hz3 : (![0, 0, 0] : Fin 3 → Nat) = fun _ => 0 := funext fun a => by fin_cases a <;> rfl

/-! ## One tile, over variables of the literal types -/

/-- A tile of the weight trace: where the point's blocks read the arrays at the entries `traceE` names, the body's
    value at the tile's entry `j` is `traceE` at the array's entry `i`. -/
theorem tileE (xb : Vec F S1x1x1024 .f32) (ewb : Vec F S1x1024x256 .f32)
    (X3 : Rows.Idx → F .f32) (EW : Cube.Idx → F .f32) (j : S1x1024x256.Idx) (i : Cube.Idx)
    (hx : xb (ix3 (0 : Fin 1) (0 : Fin 1) (j 1 : Fin 1024)) = X3 (row i))
    (he : ewb (ix3 (0 : Fin 1) (j 1 : Fin 1024) (j 2 : Fin 256)) = EW i) :
    k1_pay3 xb ewb j = traceE X3 EW i := by
  obtain ⟨u, p, q, rfl⟩ : ∃ (u : Fin 1) (p : Fin 1024) (q : Fin 256), j = ix3 u p q := ⟨j 0, j 1, j 2, eq_ix3 j⟩
  have hx' : xb (ix3 (0 : Fin 1) (0 : Fin 1) p) = X3 (row i) := hx
  have he' : ewb (ix3 (0 : Fin 1) p q) = EW i := he
  rw [Tile.twice_apply, hx', he']
  rfl

/-- A tile of the second-order trace, likewise. -/
theorem tileR (xb : Vec F S1x1x1024 .f32) (sgb dsb : Vec F S1x1x256 .f32) (ewb rwb : Vec F S1x1024x256 .f32)
    (X3 SG3 DS3 : Rows.Idx → F .f32) (EW RW : Cube.Idx → F .f32) (j : S1x1024x256.Idx) (i : Cube.Idx)
    (hx : xb (ix3 (0 : Fin 1) (0 : Fin 1) (j 1 : Fin 1024)) = X3 (row i))
    (hs : sgb (ix3 (0 : Fin 1) (0 : Fin 1) (j 2 : Fin 256)) = SG3 (lane i))
    (hd : dsb (ix3 (0 : Fin 1) (0 : Fin 1) (j 2 : Fin 256)) = DS3 (lane i))
    (he : ewb (ix3 (0 : Fin 1) (j 1 : Fin 1024) (j 2 : Fin 256)) = EW i)
    (hr : rwb (ix3 (0 : Fin 1) (j 1 : Fin 1024) (j 2 : Fin 256)) = RW i) :
    k1_pay4 xb sgb dsb ewb rwb j = traceR X3 SG3 DS3 EW RW i := by
  obtain ⟨u, p, q, rfl⟩ : ∃ (u : Fin 1) (p : Fin 1024) (q : Fin 256), j = ix3 u p q := ⟨j 0, j 1, j 2, eq_ix3 j⟩
  have hx' : xb (ix3 (0 : Fin 1) (0 : Fin 1) p) = X3 (row i) := hx
  have hs' : sgb (ix3 (0 : Fin 1) (0 : Fin 1) q) = SG3 (lane i) := hs
  have hd' : dsb (ix3 (0 : Fin 1) (0 : Fin 1) q) = DS3 (lane i) := hd
  have he' : ewb (ix3 (0 : Fin 1) p q) = EW i := he
  have hr' : rwb (ix3 (0 : Fin 1) p q) = RW i := hr
  rw [Tile.rh_apply, hx', hs', hd', he', hr']
  rfl

/-! ## The printed index maps, decided over the 128 grid points -/

/-- Every window moves with the output's block: the same sample on axis 0, nothing on axis 1, the same band on axis 2
    (band 0 for the row of `x`); and the output's block indices stay in their ranges. -/
theorem idx_facts : ∀ t : Fin cfg1.N,
    win1_0.index t (0 : Fin 3) = win1_5.index t (0 : Fin 3) ∧ win1_0.index t (1 : Fin 3) = 0 ∧ win1_0.index t (2 : Fin 3) = 0
    ∧ win1_1.index t (0 : Fin 3) = win1_5.index t (0 : Fin 3) ∧ win1_1.index t (1 : Fin 3) = 0 ∧ win1_1.index t (2 : Fin 3) = win1_5.index t (2 : Fin 3)
    ∧ win1_2.index t (0 : Fin 3) = win1_5.index t (0 : Fin 3) ∧ win1_2.index t (1 : Fin 3) = 0 ∧ win1_2.index t (2 : Fin 3) = win1_5.index t (2 : Fin 3)
    ∧ win1_3.index t (0 : Fin 3) = win1_5.index t (0 : Fin 3) ∧ win1_3.index t (1 : Fin 3) = 0 ∧ win1_3.index t (2 : Fin 3) = win1_5.index t (2 : Fin 3)
    ∧ win1_4.index t (0 : Fin 3) = win1_5.index t (0 : Fin 3) ∧ win1_4.index t (1 : Fin 3) = 0 ∧ win1_4.index t (2 : Fin 3) = win1_5.index t (2 : Fin 3)
    ∧ win1_6.index t (0 : Fin 3) = win1_5.index t (0 : Fin 3) ∧ win1_6.index t (1 : Fin 3) = 0 ∧ win1_6.index t (2 : Fin 3) = win1_5.index t (2 : Fin 3)
    ∧ win1_5.index t (1 : Fin 3) = 0 ∧ win1_5.index t (0 : Fin 3) ≤ 31 ∧ win1_5.index t (2 : Fin 3) ≤ 3 :=
  (by decide +kernel : ∀ t : Fin grid1.N, _)

/-- Every (sample, band) is some point's. -/
theorem idx_onto : ∀ (n : Fin 32) (k : Fin 4), ∃ t : Fin cfg1.N, win1_5.index t (0 : Fin 3) = n.val ∧ win1_5.index t (2 : Fin 3) = k.val :=
  (by decide +kernel : ∀ (n : Fin 32) (k : Fin 4), ∃ t : Fin grid1.N, win1_5.index t (0 : Fin 3) = n.val ∧ win1_5.index t (2 : Fin 3) = k.val)

variable (V : (c : Dev nD) → (b : Ref sig .tc) → Buf (Elt F) ((c : Thread nD τ).loc b))

/-! ## What a point writes back -/

theorem flushed1_5 (c : Dev nD) (t : Fin cfg1.N) :
    (dat1 V c).flushed 5 t = ((cfg1.win 5).blk t).view.read (Elt F) (traceE (V c main_v1) (V c main_arg4)) := by
  show (cfg1.win 5).cut (grid1.coords t) ((dat1 V c).after 5 t) = _
  rw [after1_5]
  unfold out1_5
  rw [View.canon_unit_zero hz3]
  simp only [View.ld_unit_zero (S := S1x1x1024) hz3, View.ld_unit_zero (S := S1x1024x256) hz3]
  obtain ⟨a00, a01, a02, a10, a11, a12, a20, a21, a22, a30, a31, a32, a40, a41, a42, a60, a61, a62, o1, o0, o2⟩ := idx_facts t
  funext j
  show k1_pay3 (iblk1 V c 0 t) (iblk1 V c 3 t) j = traceE (V c main_v1) (V c main_arg4) (((cfg1.win 5).blk t).view.emb j)
  have hj0 : (j 0).val < 1 := (j 0).isLt
  refine tileE _ _ _ _ j _ ?_ ?_
  · show V c main_v1 (((cfg1.win 0).blk t).view.emb (ix3 (0 : Fin 1) (0 : Fin 1) (j 1 : Fin 1024))) = V c main_v1 (row (((cfg1.win 5).blk t).view.emb j))
    refine congrArg (V c main_v1) ?_
    funext a; apply Fin.ext
    match a with
    | ⟨0, _⟩ => show win1_0.index t (0 : Fin 3) * 1 + 1 * 0 = win1_5.index t (0 : Fin 3) * 1 + 1 * (j 0).val; omega
    | ⟨1, _⟩ => show win1_0.index t (1 : Fin 3) * 1 + 1 * 0 = 0; omega
    | ⟨2, _⟩ => show win1_0.index t (2 : Fin 3) * 1024 + 1 * (j 1).val = win1_5.index t (1 : Fin 3) * 1024 + 1 * (j 1).val; omega
  · show V c main_arg4 (((cfg1.win 3).blk t).view.emb (ix3 (0 : Fin 1) (j 1 : Fin 1024) (j 2 : Fin 256))) = V c main_arg4 (((cfg1.win 5).blk t).view.emb j)
    refine congrArg (V c main_arg4) ?_
    funext a; apply Fin.ext
    match a with
    | ⟨0, _⟩ => show win1_3.index t (0 : Fin 3) * 1 + 1 * 0 = win1_5.index t (0 : Fin 3) * 1 + 1 * (j 0).val; omega
    | ⟨1, _⟩ => show win1_3.index t (1 : Fin 3) * 1024 + 1 * (j 1).val = win1_5.index t (1 : Fin 3) * 1024 + 1 * (j 1).val; omega
    | ⟨2, _⟩ => show win1_3.index t (2 : Fin 3) * 256 + 1 * (j 2).val = win1_5.index t (2 : Fin 3) * 256 + 1 * (j 2).val; omega

theorem flushed1_6 (c : Dev nD) (t : Fin cfg1.N) :
    (dat1 V c).flushed 6 t = ((cfg1.win 6).blk t).view.read (Elt F)
      (traceR (V c main_v1) (V c main_v2) (V c main_v3) (V c main_arg4) (V c main_arg6)) := by
  show (cfg1.win 6).cut (grid1.coords t) ((dat1 V c).after 6 t) = _
  rw [after1_6]
  unfold out1_6
  rw [View.canon_unit_zero hz3]
  simp only [View.ld_unit_zero (S := S1x1x1024) hz3, View.ld_unit_zero (S := S1x1x256) hz3, View.ld_unit_zero (S := S1x1024x256) hz3]
  obtain ⟨a00, a01, a02, a10, a11, a12, a20, a21, a22, a30, a31, a32, a40, a41, a42, a60, a61, a62, o1, o0, o2⟩ := idx_facts t
  funext j
  show k1_pay4 (iblk1 V c 0 t) (iblk1 V c 1 t) (iblk1 V c 2 t) (iblk1 V c 3 t) (iblk1 V c 4 t) j
    = traceR (V c main_v1) (V c main_v2) (V c main_v3) (V c main_arg4) (V c main_arg6) (((cfg1.win 6).blk t).view.emb j)
  have hj0 : (j 0).val < 1 := (j 0).isLt
  refine tileR _ _ _ _ _ _ _ _ _ _ j _ ?_ ?_ ?_ ?_ ?_
  · show V c main_v1 (((cfg1.win 0).blk t).view.emb (ix3 (0 : Fin 1) (0 : Fin 1) (j 1 : Fin 1024))) = V c main_v1 (row (((cfg1.win 6).blk t).view.emb j))
    refine congrArg (V c main_v1) ?_
    funext a; apply Fin.ext
    match a with
    | ⟨0, _⟩ => show win1_0.index t (0 : Fin 3) * 1 + 1 * 0 = win1_6.index t (0 : Fin 3) * 1 + 1 * (j 0).val; omega
    | ⟨1, _⟩ => show win1_0.index t (1 : Fin 3) * 1 + 1 * 0 = 0; omega
    | ⟨2, _⟩ => show win1_0.index t (2 : Fin 3) * 1024 + 1 * (j 1).val = win1_6.index t (1 : Fin 3) * 1024 + 1 * (j 1).val; omega
  · show V c main_v2 (((cfg1.win 1).blk t).view.emb (ix3 (0 : Fin 1) (0 : Fin 1) (j 2 : Fin 256))) = V c main_v2 (lane (((cfg1.win 6).blk t).view.emb j))
    refine congrArg (V c main_v2) ?_
    funext a; apply Fin.ext
    match a with
    | ⟨0, _⟩ => show win1_1.index t (0 : Fin 3) * 1 + 1 * 0 = win1_6.index t (0 : Fin 3) * 1 + 1 * (j 0).val; omega
    | ⟨1, _⟩ => show win1_1.index t (1 : Fin 3) * 1 + 1 * 0 = 0; omega
    | ⟨2, _⟩ => show win1_1.index t (2 : Fin 3) * 256 + 1 * (j 2).val = win1_6.index t (2 : Fin 3) * 256 + 1 * (j 2).val; omega
  · show V c main_v3 (((cfg1.win 2).blk t).view.emb (ix3 (0 : Fin 1) (0 : Fin 1) (j 2 : Fin 256))) = V c main_v3 (lane (((cfg1.win 6).blk t).view.emb j))
    refine congrArg (V c main_v3) ?_
    funext a; apply Fin.ext
    match a with
    | ⟨0, _⟩ => show win1_2.index t (0 : Fin 3) * 1 + 1 * 0 = win1_6.index t (0 : Fin 3) * 1 + 1 * (j 0).val; omega
    | ⟨1, _⟩ => show win1_2.index t (1 : Fin 3) * 1 + 1 * 0 = 0; omega
    | ⟨2, _⟩ => show win1_2.index t (2 : Fin 3) * 256 + 1 * (j 2).val = win1_6.index t (2 : Fin 3) * 256 + 1 * (j 2).val; omega
  · show V c main_arg4 (((cfg1.win 3).blk t).view.emb (ix3 (0 : Fin 1) (j 1 : Fin 1024) (j 2 : Fin 256))) = V c main_arg4 (((cfg1.win 6).blk t).view.emb j)
    refine congrArg (V c main_arg4) ?_
    funext a; apply Fin.ext
    match a with
    | ⟨0, _⟩ => show win1_3.index t (0 : Fin 3) * 1 + 1 * 0 = win1_6.index t (0 : Fin 3) * 1 + 1 * (j 0).val; omega
    | ⟨1, _⟩ => show win1_3.index t (1 : Fin 3) * 1024 + 1 * (j 1).val = win1_6.index t (1 : Fin 3) * 1024 + 1 * (j 1).val; omega
    | ⟨2, _⟩ => show win1_3.index t (2 : Fin 3) * 256 + 1 * (j 2).val = win1_6.index t (2 : Fin 3) * 256 + 1 * (j 2).val; omega
  · show V c main_arg6 (((cfg1.win 4).blk t).view.emb (ix3 (0 : Fin 1) (j 1 : Fin 1024) (j 2 : Fin 256))) = V c main_arg6 (((cfg1.win 6).blk t).view.emb j)
    refine congrArg (V c main_arg6) ?_
    funext a; apply Fin.ext
    match a with
    | ⟨0, _⟩ => show win1_4.index t (0 : Fin 3) * 1 + 1 * 0 = win1_6.index t (0 : Fin 3) * 1 + 1 * (j 0).val; omega
    | ⟨1, _⟩ => show win1_4.index t (1 : Fin 3) * 1024 + 1 * (j 1).val = win1_6.index t (1 : Fin 3) * 1024 + 1 * (j 1).val; omega
    | ⟨2, _⟩ => show win1_4.index t (2 : Fin 3) * 256 + 1 * (j 2).val = win1_6.index t (2 : Fin 3) * 256 + 1 * (j 2).val; omega

/-! ## The 128 blocks tile the array: entry (n, p, q) lies in the block of sample n and band q / 256 -/

theorem whole1_5 (i : S32x1024x1024.Idx) : ∃ t : Fin cfg1.N, (cfg1.win 5).flush t = true ∧ i ∈ ((cfg1.win 5).blk t).view.set := by
  have h0 : (i 0).val < 32 := (i 0).isLt
  have h1 : (i 1).val < 1024 := (i 1).isLt
  have h2 : (i 2).val < 1024 := (i 2).isLt
  obtain ⟨t, q0, q2⟩ := idx_onto ⟨(i 0).val, h0⟩ ⟨(i 2).val / 256, by omega⟩
  have q0' : win1_5.index t (0 : Fin 3) = (i 0).val := q0
  have q2' : win1_5.index t (2 : Fin 3) = (i 2).val / 256 := q2
  obtain ⟨a00, a01, a02, a10, a11, a12, a20, a21, a22, a30, a31, a32, a40, a41, a42, a60, a61, a62, o1, o0, o2⟩ := idx_facts t
  refine ⟨t, flush1_5 t, ?_⟩
  show i ∈ ((View.whole main_v4_0).slice (win1_5.rect t)).set
  rw [View.set_slice_whole, Rect.mem_set_unit]
  intro a
  match a with
  | ⟨0, _⟩ => show win1_5.index t (0 : Fin 3) * 1 ≤ (i 0).val ∧ (i 0).val < win1_5.index t (0 : Fin 3) * 1 + 1; omega
  | ⟨1, _⟩ => show win1_5.index t (1 : Fin 3) * 1024 ≤ (i 1).val ∧ (i 1).val < win1_5.index t (1 : Fin 3) * 1024 + 1024; omega
  | ⟨2, _⟩ => show win1_5.index t (2 : Fin 3) * 256 ≤ (i 2).val ∧ (i 2).val < win1_5.index t (2 : Fin 3) * 256 + 256; omega

theorem whole1_6 (i : S32x1024x1024.Idx) : ∃ t : Fin cfg1.N, (cfg1.win 6).flush t = true ∧ i ∈ ((cfg1.win 6).blk t).view.set := by
  have h0 : (i 0).val < 32 := (i 0).isLt
  have h1 : (i 1).val < 1024 := (i 1).isLt
  have h2 : (i 2).val < 1024 := (i 2).isLt
  obtain ⟨t, q0, q2⟩ := idx_onto ⟨(i 0).val, h0⟩ ⟨(i 2).val / 256, by omega⟩
  have q0' : win1_5.index t (0 : Fin 3) = (i 0).val := q0
  have q2' : win1_5.index t (2 : Fin 3) = (i 2).val / 256 := q2
  obtain ⟨a00, a01, a02, a10, a11, a12, a20, a21, a22, a30, a31, a32, a40, a41, a42, a60, a61, a62, o1, o0, o2⟩ := idx_facts t
  refine ⟨t, flush1_6 t, ?_⟩
  show i ∈ ((View.whole main_v4_1).slice (win1_6.rect t)).set
  rw [View.set_slice_whole, Rect.mem_set_unit]
  intro a
  match a with
  | ⟨0, _⟩ => show win1_6.index t (0 : Fin 3) * 1 ≤ (i 0).val ∧ (i 0).val < win1_6.index t (0 : Fin 3) * 1 + 1; omega
  | ⟨1, _⟩ => show win1_6.index t (1 : Fin 3) * 1024 ≤ (i 1).val ∧ (i 1).val < win1_6.index t (1 : Fin 3) * 1024 + 1024; omega
  | ⟨2, _⟩ => show win1_6.index t (2 : Fin 3) * 256 ≤ (i 2).val ∧ (i 2).val < win1_6.index t (2 : Fin 3) * 256 + 256; omega

/-! ## What the region leaves in its two output arrays -/

/-- The weight trace `E_W2`. -/
theorem arr1_5 (c : Dev nD) : (dat1 V c).arrAt 5 cfg1.N = traceE (V c main_v1) (V c main_arg4) :=
  (dat1 V c).arrAt_eq_of_cover 5 _ (fun t _ => flushed1_5 V c t) whole1_5

/-- The second-order trace `Rh_W2`. -/
theorem arr1_6 (c : Dev nD) : (dat1 V c).arrAt 6 cfg1.N
    = traceR (V c main_v1) (V c main_v2) (V c main_v3) (V c main_arg4) (V c main_arg6) :=
  (dat1 V c).arrAt_eq_of_cover 6 _ (fun t _ => flushed1_6 V c t) whole1_6

end Cert.KernelIdeal.Big

end
-- ==== Proof.Ends.lean ====
/-
  The final memory, read back through @main's three segments.

  The last boundary's contents `W3` are a fold: the second region's two output arrays at what its write-backs leave,
  every other buffer at what it held when that region was entered (`W2`); `W2` is the host stretch — three reshapes,
  of `x`, of `sg` and of `ds_du`, to [32, 1, 1024] — over the first region's exit contents `W1`; and `W1` has the
  first region's seven output arrays at what its one grid point leaves, everything else as launched. Walking back:

    s, E_b2, Rh_b2, g_bar2, r2   are written by the first region and touched by nothing after it,
    E_W2, Rh_W2                  are the second region's arrays, entered with the reshaped `x`, `sg`, `ds_du` and
                                 with `E_W`, `Rh_W` as launched.

  At any float instance.
-/
import proofs.«163380_j30940944400973_1_alg».proof.Proof.LaunchAll
import proofs.«163380_j30940944400973_1_alg».proof.Proof.Small
import proofs.«163380_j30940944400973_1_alg».proof.Proof.Big
import Idealize.ShloMosaic.Lib.StableHlo.Run

set_option maxRecDepth 16384

noncomputable section

namespace Cert.KernelIdeal.Ends

open Cert.KernelIdeal Cert.KernelIdeal.Gen Cert.Spec
open Idealize.ShloMosaic Idealize.ShloMosaic.TcCoe Idealize.SL.Sem Idealize.ShloMosaic.StableHlo
open Idealize.ShloMosaic.Pipeline (Dat Cfg Window)

variable {F : FTy → Type} [FloatOps F]
variable (m : (ℓ : Loc nD τ sig) → Buf (Elt F) ℓ) (ρ : Dev nD → PrngReg)

/-- The values the first kernel computes from the launch memory, named once. -/
abbrev sOf (c : Dev nD) : Vec F S32x1024 .f32 :=
  k0_pay4 (m ((c : Thread nD τ).loc main_arg0)) (m ((c : Thread nD τ).loc main_arg1)) (m ((c : Thread nD τ).loc main_arg2)) (m ((c : Thread nD τ).loc main_arg3))
abbrev sgOf (c : Dev nD) : Vec F S32x1024 .f32 :=
  k0_pay5 (m ((c : Thread nD τ).loc main_arg0)) (m ((c : Thread nD τ).loc main_arg1)) (m ((c : Thread nD τ).loc main_arg2)) (m ((c : Thread nD τ).loc main_arg3))
abbrev dsduOf (c : Dev nD) : Vec F S32x1024 .f32 :=
  k0_pay6 (m ((c : Thread nD τ).loc main_arg0)) (m ((c : Thread nD τ).loc main_arg1)) (m ((c : Thread nD τ).loc main_arg2)) (m ((c : Thread nD τ).loc main_arg3))

/-! ## After the first region -/

theorem W1_main_arg0 (c : Dev nD) : W1 m ρ c (Proc.devRef .tc main_arg0) = m ((c : Thread nD τ).loc main_arg0) :=
  (W1_arr m ρ c 0).trans (((dat0 (V0 m ρ) c).arrAt_in 0 rfl _).trans (A_eq0 (V0 m ρ) c 0))
theorem W1_main_arg4 (c : Dev nD) : W1 m ρ c (Proc.devRef .tc main_arg4) = m ((c : Thread nD τ).loc main_arg4) :=
  W1_of_ne m ρ c main_arg4 (by decide)
theorem W1_main_arg6 (c : Dev nD) : W1 m ρ c (Proc.devRef .tc main_arg6) = m ((c : Thread nD τ).loc main_arg6) :=
  W1_of_ne m ρ c main_arg6 (by decide)

theorem W1_main_v0_0 (c : Dev nD) : W1 m ρ c (Proc.devRef .tc main_v0_0) = sOf m c :=
  (W1_arr m ρ c 8).trans (Small.arr0_8 (V0 m ρ) c)
theorem W1_main_v0_1 (c : Dev nD) : W1 m ρ c (Proc.devRef .tc main_v0_1) = sgOf m c :=
  (W1_arr m ρ c 9).trans (Small.arr0_9 (V0 m ρ) c)
theorem W1_main_v0_2 (c : Dev nD) : W1 m ρ c (Proc.devRef .tc main_v0_2) = dsduOf m c :=
  (W1_arr m ρ c 10).trans (Small.arr0_10 (V0 m ρ) c)
theorem W1_main_v0_3 (c : Dev nD) : W1 m ρ c (Proc.devRef .tc main_v0_3) = k0_pay8 (m ((c : Thread nD τ).loc main_arg5)) :=
  (W1_arr m ρ c 11).trans (Small.arr0_11 (V0 m ρ) c)
theorem W1_main_v0_4 (c : Dev nD) : W1 m ρ c (Proc.devRef .tc main_v0_4)
    = k0_pay9 (m ((c : Thread nD τ).loc main_arg0)) (m ((c : Thread nD τ).loc main_arg1)) (m ((c : Thread nD τ).loc main_arg2)) (m ((c : Thread nD τ).loc main_arg3))
        (m ((c : Thread nD τ).loc main_arg5)) (m ((c : Thread nD τ).loc main_arg7)) :=
  (W1_arr m ρ c 12).trans (Small.arr0_12 (V0 m ρ) c)
theorem W1_main_v0_5 (c : Dev nD) : W1 m ρ c (Proc.devRef .tc main_v0_5)
    = k0_pay3 (dsduOf m c) (m ((c : Thread nD τ).loc main_arg9)) (Scalar.ofBits .f32 0x3F666666#32) (m ((c : Thread nD τ).loc main_arg8)) :=
  (W1_arr m ρ c 13).trans (Small.arr0_13 (V0 m ρ) c)
theorem W1_main_v0_6 (c : Dev nD) : W1 m ρ c (Proc.devRef .tc main_v0_6)
    = k0_pay2 (m ((c : Thread nD τ).loc main_arg9)) (Scalar.ofBits .f32 0x3F666666#32) :=
  (W1_arr m ρ c 14).trans (Small.arr0_14 (V0 m ρ) c)

/-! ## After the host stretch: what the second region is entered with -/

theorem V2_main_v1 (c : Dev nD) : V2 m ρ c main_v1
    = shapeCast S32x1x1024 (m ((c : Thread nD τ).loc main_arg0)) shapeCasts_S32x1024_S32x1x1024 := by
  show StableHlo.after hostOps1 (W1 m ρ c) (Proc.devRef .tc main_v1) = _
  after_results
  rw [W1_main_arg0 m ρ c]
  rfl
theorem V2_main_v2 (c : Dev nD) : V2 m ρ c main_v2 = shapeCast S32x1x1024 (sgOf m c) shapeCasts_S32x1024_S32x1x1024 := by
  show StableHlo.after hostOps1 (W1 m ρ c) (Proc.devRef .tc main_v2) = _
  after_results
  rw [W1_main_v0_1 m ρ c]
  rfl
theorem V2_main_v3 (c : Dev nD) : V2 m ρ c main_v3 = shapeCast S32x1x1024 (dsduOf m c) shapeCasts_S32x1024_S32x1x1024 := by
  show StableHlo.after hostOps1 (W1 m ρ c) (Proc.devRef .tc main_v3) = _
  after_results
  rw [W1_main_v0_2 m ρ c]
  rfl
theorem V2_main_arg4 (c : Dev nD) : V2 m ρ c main_arg4 = m ((c : Thread nD τ).loc main_arg4) := by
  show StableHlo.after hostOps1 (W1 m ρ c) (Proc.devRef .tc main_arg4) = _
  after_results
  exact W1_main_arg4 m ρ c
theorem V2_main_arg6 (c : Dev nD) : V2 m ρ c main_arg6 = m ((c : Thread nD τ).loc main_arg6) := by
  show StableHlo.after hostOps1 (W1 m ρ c) (Proc.devRef .tc main_arg6) = _
  after_results
  exact W1_main_arg6 m ρ c

/-- A buffer the host stretch does not write keeps the first region's exit contents. -/
theorem W2_main_v0_0 (c : Dev nD) : W2 m ρ c (Proc.devRef .tc main_v0_0) = sOf m c := by
  show StableHlo.after hostOps1 (W1 m ρ c) (Proc.devRef .tc main_v0_0) = _
  after_results
  exact W1_main_v0_0 m ρ c
theorem W2_main_v0_3 (c : Dev nD) : W2 m ρ c (Proc.devRef .tc main_v0_3) = k0_pay8 (m ((c : Thread nD τ).loc main_arg5)) := by
  show StableHlo.after hostOps1 (W1 m ρ c) (Proc.devRef .tc main_v0_3) = _
  after_results
  exact W1_main_v0_3 m ρ c
theorem W2_main_v0_4 (c : Dev nD) : W2 m ρ c (Proc.devRef .tc main_v0_4)
    = k0_pay9 (m ((c : Thread nD τ).loc main_arg0)) (m ((c : Thread nD τ).loc main_arg1)) (m ((c : Thread nD τ).loc main_arg2)) (m ((c : Thread nD τ).loc main_arg3))
        (m ((c : Thread nD τ).loc main_arg5)) (m ((c : Thread nD τ).loc main_arg7)) := by
  show StableHlo.after hostOps1 (W1 m ρ c) (Proc.devRef .tc main_v0_4) = _
  after_results
  exact W1_main_v0_4 m ρ c
theorem W2_main_v0_5 (c : Dev nD) : W2 m ρ c (Proc.devRef .tc main_v0_5)
    = k0_pay3 (dsduOf m c) (m ((c : Thread nD τ).loc main_arg9)) (Scalar.ofBits .f32 0x3F666666#32) (m ((c : Thread nD τ).loc main_arg8)) := by
  show StableHlo.after hostOps1 (W1 m ρ c) (Proc.devRef .tc main_v0_5) = _
  after_results
  exact W1_main_v0_5 m ρ c
theorem W2_main_v0_6 (c : Dev nD) : W2 m ρ c (Proc.devRef .tc main_v0_6)
    = k0_pay2 (m ((c : Thread nD τ).loc main_arg9)) (Scalar.ofBits .f32 0x3F666666#32) := by
  show StableHlo.after hostOps1 (W1 m ρ c) (Proc.devRef .tc main_v0_6) = _
  after_results
  exact W1_main_v0_6 m ρ c

/-! ## The run, with every result named -/

/-- Every weakly fair execution of @main terminates, nothing faulting, with the seven results at their values of the
    launch memory and the ten arguments unchanged. -/
theorem run_values : θ_run defs (onTc (τ := τ) (main (F := F))) ⟨m, fun _ => 0, ρ⟩ (fun r => ∀ c : Dev nD,
      r.2.mem ((c : Thread nD τ).loc main_v0_0) = sOf m c
      ∧ r.2.mem ((c : Thread nD τ).loc main_v4_0)
          = traceE (shapeCast S32x1x1024 (m ((c : Thread nD τ).loc main_arg0)) shapeCasts_S32x1024_S32x1x1024) (m ((c : Thread nD τ).loc main_arg4))
      ∧ r.2.mem ((c : Thread nD τ).loc main_v0_3) = k0_pay8 (m ((c : Thread nD τ).loc main_arg5))
      ∧ r.2.mem ((c : Thread nD τ).loc main_v4_1)
          = traceR (shapeCast S32x1x1024 (m ((c : Thread nD τ).loc main_arg0)) shapeCasts_S32x1024_S32x1x1024)
              (shapeCast S32x1x1024 (sgOf m c) shapeCasts_S32x1024_S32x1x1024) (shapeCast S32x1x1024 (dsduOf m c) shapeCasts_S32x1024_S32x1x1024)
              (m ((c : Thread nD τ).loc main_arg4)) (m ((c : Thread nD τ).loc main_arg6))
      ∧ r.2.mem ((c : Thread nD τ).loc main_v0_4)
          = k0_pay9 (m ((c : Thread nD τ).loc main_arg0)) (m ((c : Thread nD τ).loc main_arg1)) (m ((c : Thread nD τ).loc main_arg2)) (m ((c : Thread nD τ).loc main_arg3))
              (m ((c : Thread nD τ).loc main_arg5)) (m ((c : Thread nD τ).loc main_arg7))
      ∧ r.2.mem ((c : Thread nD τ).loc main_v0_5)
          = k0_pay3 (dsduOf m c) (m ((c : Thread nD τ).loc main_arg9)) (Scalar.ofBits .f32 0x3F666666#32) (m ((c : Thread nD τ).loc main_arg8))
      ∧ r.2.mem ((c : Thread nD τ).loc main_v0_6) = k0_pay2 (m ((c : Thread nD τ).loc main_arg9)) (Scalar.ofBits .f32 0x3F666666#32)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)) :=
  (θ_run defs _ _).mono (fun r h c =>
    ⟨(h c main_v0_0 (by decide)).trans ((W3_of_ne m ρ c main_v0_0 (by decide)).trans (W2_main_v0_0 m ρ c)),
     (h c main_v4_0 (by decide)).trans ((W3_arr m ρ c 5).trans (by
        rw [Big.arr1_5 (V2 m ρ) c, V2_main_v1 m ρ c, V2_main_arg4 m ρ c])),
     (h c main_v0_3 (by decide)).trans ((W3_of_ne m ρ c main_v0_3 (by decide)).trans (W2_main_v0_3 m ρ c)),
     (h c main_v4_1 (by decide)).trans ((W3_arr m ρ c 6).trans (by
        rw [Big.arr1_6 (V2 m ρ) c, V2_main_v1 m ρ c, V2_main_v2 m ρ c, V2_main_v3 m ρ c, V2_main_arg4 m ρ c, V2_main_arg6 m ρ c])),
     (h c main_v0_4 (by decide)).trans ((W3_of_ne m ρ c main_v0_4 (by decide)).trans (W2_main_v0_4 m ρ c)),
     (h c main_v0_5 (by decide)).trans ((W3_of_ne m ρ c main_v0_5 (by decide)).trans (W2_main_v0_5 m ρ c)),
     (h c main_v0_6 (by decide)).trans ((W3_of_ne m ρ c main_v0_6 (by decide)).trans (W2_main_v0_6 m ρ c)),
     (h c main_arg0 (by decide)).trans (W3_main_arg0 m ρ c),
     (h c main_arg1 (by decide)).trans (W3_main_arg1 m ρ c),
     (h c main_arg2 (by decide)).trans (W3_main_arg2 m ρ c),
     (h c main_arg3 (by decide)).trans (W3_main_arg3 m ρ c),
     (h c main_arg4 (by decide)).trans (W3_main_arg4 m ρ c),
     (h c main_arg5 (by decide)).trans (W3_main_arg5 m ρ c),
     (h c main_arg6 (by decide)).trans (W3_main_arg6 m ρ c),
     (h c main_arg7 (by decide)).trans (W3_main_arg7 m ρ c),
     (h c main_arg8 (by decide)).trans (W3_main_arg8 m ρ c),
     (h c main_arg9 (by decide)).trans (W3_main_arg9 m ρ c)⟩)
    (Whole.run_ref m ρ)

end Cert.KernelIdeal.Ends

end
-- ==== Proof.Chain.lean ====
/-
  The dense layer, the leaky integrator's spike and the small traces: every [32, 1024] (and the one [32, 1]) value the
  first kernel stores is, at the ideal instance, the value the reference computes at the stage of the same name.

  The two programs apply the same operations in the same order to the same arguments; they differ only in how three
  things are SPELLED. The kernel's `logistic z` is the reference's `1 / (1 + exp (-z))` (at the ideal instance the
  operation IS that expression, and the pattern 0x3F800000 is the extended real one). The kernel's matrix product of the
  operands narrowed to bf16, accumulated into a zero splat, is the reference's `dot_general` of the operands themselves
  (a change of format is the identity, and the zero accumulator adds nothing). A constant the reference broadcasts in
  dimensions is the kernel's splat of it, and the bias laid along every row is the same array whether it is cast to one
  row and broadcast down or broadcast in dimensions twice. No law of arithmetic beyond these readings is used, so no
  input has to be finite.
-/
import proofs.«163380_j30940944400973_1_alg».proof.Proof.Gen.KernelIdeal.Skeleton
import proofs.«163380_j30940944400973_1_alg».proof.Proof.Gen.ReferenceIdeal.Read
import Idealize.ShloMosaic.Lib.KernelVsHost
import Idealize.ShloMosaic.Lib.IdealHost

noncomputable section

namespace Cert.Chain

open Idealize.ShloMosaic Idealize.ShloMosaic.ValueIdx
open Cert.KernelIdeal Cert.KernelIdeal.Gen

/-- A [32, 1024] array of extended reals. -/
abbrev R32x1024 : Type := FVec Ideal Cert.KernelIdeal.S32x1024 FTy.f32

/-- The host's spelling of the sigmoid, `1 / (1 + exp (-z))` with both ones the splat of the pattern 0x3F800000, is the
    kernel's `logistic z`: at the ideal instance the operation is that expression, and the pattern is the number one. -/
theorem host_sigmoid {s : Shape} (z : FVec Ideal s .f32) :
    Host.divf (broadcast s (Scalar.ofBits (F := Ideal) .f32 0x3F800000#32))
      (addf (broadcast s (Scalar.ofBits (F := Ideal) .f32 0x3F800000#32)) (Host.exp (Host.negf z))) = logistic z := by
  funext i
  show FloatOps.hostDivf (Ideal.ofBits .f32 0x3F800000#32)
      (FloatOps.addf (Ideal.ofBits .f32 0x3F800000#32) (FloatOps.hostUnary .exp (FloatOps.hostNegf (z i)))) = FloatOps.logistic (z i)
  rw [Ideal.ofBits_one_f32]
  rfl

/-- The product `x · W`: the kernel's, of the operands narrowed to bf16 and into a zero accumulator, is the reference's. -/
theorem product_eq (x : R32x1024) (W : FVec Ideal Cert.KernelIdeal.S1024x1024 .f32) :
    matmul Cert.KernelIdeal.dot_S32x1024_S1024x1024_S32x1024_1_0_0_1_n_n none (truncf .bf16 x bitsLt_bf16_f32) (truncf .bf16 W bitsLt_bf16_f32)
        (constant Cert.KernelIdeal.S32x1024 .f32 0x00000000#32)
      = Cert.ReferenceIdeal.Read.val_main_v0 (F := Ideal) x W :=
  (matmul_zero_eq_dotGeneral _ _ _ _).trans rfl

/-- The bias laid along each of the 32 rows: the kernel casts it to one row and broadcasts that down, the reference
    broadcasts it in dimensions twice; either way the entry at (r, j) is `b j`. -/
theorem bias_eq (b : FVec Ideal Cert.KernelIdeal.S1024 .f32) (h1 : Cert.KernelIdeal.S1024.ShapeCasts Cert.KernelIdeal.S1x1024)
    (hb : Cert.KernelIdeal.S1x1024.Broadcasts Cert.KernelIdeal.S32x1024) :
    broadcastTo Cert.KernelIdeal.S32x1024 (shapeCast Cert.KernelIdeal.S1x1024 b h1) hb
      = Cert.ReferenceIdeal.Read.val_main_v2 (F := Ideal) b := by
  funext i
  rw [Cert.ReferenceIdeal.Read.val_main_v2_apply, Cert.ReferenceIdeal.Read.val_main_v1_apply]
  have hd : (⟨1, ![1024]⟩ : Shape).BroadcastsInDim ⟨2, ![32, 1024]⟩ ![1] := by decide
  refine (congrFun (broadcastTo_row_eq_broadcastInDim (m := 32) (n := 1024) b h1 hb hd) i).trans ?_
  refine broadcastInDim_apply ![1] hd b i _ ?_
  intro a
  match a with
  | ⟨0, _⟩ => show (i 1).val = if (1024 : Nat) = 1 then 0 else (i 1).val; rw [if_neg (by decide)]

/-- A [32, 1] column laid along the 1024 lanes: the kernel's broadcast of it is the reference's broadcast in dimensions. -/
theorem column_eq (v : FVec Ideal Cert.KernelIdeal.S32x1 .f32) (hb : Cert.KernelIdeal.S32x1.Broadcasts Cert.KernelIdeal.S32x1024)
    (hd : Cert.KernelIdeal.S32x1.BroadcastsInDim Cert.KernelIdeal.S32x1024 ![0, 1]) :
    broadcastTo Cert.KernelIdeal.S32x1024 v hb = broadcastInDim Cert.KernelIdeal.S32x1024 ![0, 1] hd v := by
  funext i
  have e1 := broadcastTo_apply v hb i (ix2 (i 0 : Fin 32) (0 : Fin 1)) (by
    intro a
    match a with
    | ⟨0, _⟩ => show (i 0).val = if (32 : Nat) = 1 then 0 else (i 0).val; rw [if_neg (by decide)]
    | ⟨1, _⟩ => show (0 : Nat) = if (1 : Nat) = 1 then 0 else (i 1).val; rw [if_pos rfl])
  have e2 := broadcastInDim_apply ![0, 1] hd v i (ix2 (i 0 : Fin 32) (0 : Fin 1)) (by
    intro a
    match a with
    | ⟨0, _⟩ => show (i 0).val = if (32 : Nat) = 1 then 0 else (i 0).val; rw [if_neg (by decide)]
    | ⟨1, _⟩ => show (0 : Nat) = if (1 : Nat) = 1 then 0 else (i 1).val; rw [if_pos rfl])
  exact e1.trans e2.symm

/-! ## Each value the first kernel stores is the reference's stage -/

variable (x : R32x1024) (W : FVec Ideal Cert.KernelIdeal.S1024x1024 .f32) (b : FVec Ideal Cert.KernelIdeal.S1024 .f32)
  (u eb rhb gbar : R32x1024) (r : FVec Ideal Cert.KernelIdeal.S32x1 .f32)

/-- The spike `s = sigmoid (β·u + (x·W + b) − 1)`. -/
theorem s_eq : k0_pay4 (F := Ideal) x W b u = Cert.ReferenceIdeal.Read.val_main_v14 (F := Ideal) x W b u := by
  show logistic (subf (addf (mulf (broadcast Cert.KernelIdeal.S32x1024 (Scalar.ofBits (F := Ideal) .f32 0x3F666666#32)) u)
      (addf (matmul Cert.KernelIdeal.dot_S32x1024_S1024x1024_S32x1024_1_0_0_1_n_n none (truncf .bf16 x bitsLt_bf16_f32) (truncf .bf16 W bitsLt_bf16_f32)
          (constant Cert.KernelIdeal.S32x1024 .f32 0x00000000#32))
        (broadcastTo Cert.KernelIdeal.S32x1024 (shapeCast Cert.KernelIdeal.S1x1024 b shapeCasts_S1024_S1x1024) broadcasts_S1x1024_S32x1024)))
      (broadcast Cert.KernelIdeal.S32x1024 (Scalar.ofBits (F := Ideal) .f32 0x3F800000#32))) = _
  rw [product_eq, bias_eq, ← host_sigmoid]
  rfl

/-- `sg = s · (1 − s)`. -/
theorem sg_eq : k0_pay5 (F := Ideal) x W b u = Cert.ReferenceIdeal.Read.val_main_v17 (F := Ideal) x W b u := by
  show mulf (k0_pay4 (F := Ideal) x W b u)
      (subf (broadcast Cert.KernelIdeal.S32x1024 (Scalar.ofBits (F := Ideal) .f32 0x3F800000#32)) (k0_pay4 (F := Ideal) x W b u)) = _
  rw [s_eq]
  rfl

/-- `ds_du = β · sg`. -/
theorem dsdu_eq : k0_pay6 (F := Ideal) x W b u = Cert.ReferenceIdeal.Read.val_main_v19 (F := Ideal) x W b u := by
  show mulf (broadcast Cert.KernelIdeal.S32x1024 (Scalar.ofBits (F := Ideal) .f32 0x3F666666#32)) (k0_pay5 (F := Ideal) x W b u) = _
  rw [sg_eq]
  rfl

/-- The bias trace updated twice: `β · (β · E_b + 1) + 1`. -/
theorem eb2_eq : k0_pay8 (F := Ideal) eb = Cert.ReferenceIdeal.Read.val_main_v45 (F := Ideal) eb := rfl

/-- `Rh_b2 = ds_du · Rh_b + (ds_du · (β · E_b + 1) + sg)`. -/
theorem rhb2_eq : k0_pay9 (F := Ideal) x W b u eb rhb = Cert.ReferenceIdeal.Read.val_main_v51 (F := Ideal) x W b u eb rhb := by
  show addf (mulf (k0_pay6 (F := Ideal) x W b u) rhb) (addf (mulf (k0_pay6 (F := Ideal) x W b u) (k0_pay7 (F := Ideal) eb)) (k0_pay5 (F := Ideal) x W b u)) = _
  rw [dsdu_eq, sg_eq]
  rfl

/-- The ratio trace `r2 = λ · r + 1`. -/
theorem r2_eq : k0_pay2 (F := Ideal) r (Scalar.ofBits .f32 0x3F666666#32) = Cert.ReferenceIdeal.Read.val_main_v55 (F := Ideal) r := rfl

/-- `g_bar2 = q · g_bar + (1 − q) · ds_du` with `q = λ·r / (λ·r + 1)` laid along the lanes. -/
theorem gbar2_eq : k0_pay3 (F := Ideal) (k0_pay6 (F := Ideal) x W b u) r (Scalar.ofBits .f32 0x3F666666#32) gbar
    = Cert.ReferenceIdeal.Read.val_main_v63 (F := Ideal) x W b u gbar r := by
  show addf (mulf (broadcastTo Cert.KernelIdeal.S32x1024 (divf (k0_pay1 (F := Ideal) r (Scalar.ofBits .f32 0x3F666666#32)) (k0_pay2 (F := Ideal) r (Scalar.ofBits .f32 0x3F666666#32))) broadcasts_S32x1_S32x1024) gbar)
      (mulf (broadcastTo Cert.KernelIdeal.S32x1024 (subf (broadcast Cert.KernelIdeal.S32x1 (Scalar.ofBits (F := Ideal) .f32 0x3F800000#32)) (divf (k0_pay1 (F := Ideal) r (Scalar.ofBits .f32 0x3F666666#32)) (k0_pay2 (F := Ideal) r (Scalar.ofBits .f32 0x3F666666#32)))) broadcasts_S32x1_S32x1024)
        (k0_pay6 (F := Ideal) x W b u)) = _
  rw [dsdu_eq, column_eq _ _ Cert.ReferenceIdeal.Facts₀.bcast_S32x1_S32x1024_0_1, column_eq _ _ Cert.ReferenceIdeal.Facts₀.bcast_S32x1_S32x1024_0_1]
  rfl

end Cert.Chain

end
-- ==== Proof.Same.lean ====
/-
  The two big traces, as the second kernel computes them from the reshaped `x`, `sg` and `ds_du`, are the reference's.

  The reference never reshapes: it broadcasts `x` along the output axis ([32, 1024] → [32, 1024, 1] → [32, 1024, 1024])
  and `sg`, `ds_du` along the input axis ([32, 1024] → [32, 1, 1024] → [32, 1024, 1024]). Read at an entry (n, p, q),
  its broadcast of `x` is `x (n, p)` and its broadcasts of `sg`, `ds_du` are their entries at (n, q). The kernel's
  [32, 1, 1024] views read the same entries: a [32, 1024] array cast to [32, 1, 1024] reads, at (n, 0, k), the array at
  (n, k). With the entries matched, the two sides are the same expression.
-/
import proofs.«163380_j30940944400973_1_alg».proof.Proof.Spec
import proofs.«163380_j30940944400973_1_alg».proof.Proof.Gen.ReferenceIdeal.Read
import Idealize.ShloMosaic.Lib.Pipeline.Value
import Idealize.ShloMosaic.Lib.ValueIdx

noncomputable section

namespace Cert.Same

open Idealize.ShloMosaic Idealize.ShloMosaic.ValueIdx Cert.Spec
open Cert.ReferenceIdeal Cert.ReferenceIdeal.Read

/-- A [32, 1024] array cast to [32, 1, 1024] reads, at (n, u, k), the array at (n, k). -/
theorem rows_apply {α : Type} (v : (⟨2, ![32, 1024]⟩ : Shape).Idx → α) (h : (⟨2, ![32, 1024]⟩ : Shape).ShapeCasts Rows)
    (n : Fin 32) (u : Fin 1) (k : Fin 1024) : shapeCast Rows v h (ix3 n u k) = v (ix2 n k) :=
  shapeCast_apply v h _ _ (by
    have hu : u.val = 0 := by omega
    rw [Shape.rowMajor_val_three, Shape.rowMajor_val_two]
    show n.val * 1024 + k.val = (n.val * 1 + u.val) * 1024 + k.val
    rw [hu]; omega)

variable (x : FVec Ideal S32x1024 .f32) (W : FVec Ideal S1024x1024 .f32) (b : FVec Ideal S1024 .f32) (u : FVec Ideal S32x1024 .f32)
  (EW RW : FVec Ideal S32x1024x1024 .f32) (h : S32x1024.ShapeCasts Rows)

/-- The weight trace `E_W2`. -/
theorem traceE_eq : traceE (F := Ideal) (shapeCast Rows x h) EW = val_main_v42 (F := Ideal) x EW := by
  funext i
  have hrow : shapeCast Rows x h (row i) = x (idx_main_v25 (idx_main_v26 i)) :=
    (rows_apply x h _ _ _).trans (congrArg x (funext fun a => by match a with | ⟨0, _⟩ => rfl | ⟨1, _⟩ => rfl))
  show FloatOps.addf (FloatOps.mulf (Scalar.ofBits .f32 0x3F666666#32)
      (FloatOps.addf (FloatOps.mulf (Scalar.ofBits .f32 0x3F666666#32) (EW i)) (shapeCast Rows x h (row i)))) (shapeCast Rows x h (row i)) = _
  rw [hrow, val_main_v42_apply, val_main_v41_apply, val_main_v40_apply, val_main_cst_8_apply, val_main_v30_apply, val_main_v29_apply,
    val_main_v28_apply, val_main_cst_6_apply, val_main_v26_apply, val_main_v25_apply]

/-- The second-order trace `Rh_W2`, fed with the reference's own `sg` and `ds_du`. -/
theorem traceR_eq :
    traceR (F := Ideal) (shapeCast Rows x h) (shapeCast Rows (val_main_v17 (F := Ideal) x W b u) h)
        (shapeCast Rows (val_main_v19 (F := Ideal) x W b u) h) EW RW
      = val_main_v49 (F := Ideal) x W b u EW RW := by
  funext i
  have hrow : shapeCast Rows x h (row i) = x (idx_main_v25 (idx_main_v26 i)) :=
    (rows_apply x h _ _ _).trans (congrArg x (funext fun a => by match a with | ⟨0, _⟩ => rfl | ⟨1, _⟩ => rfl))
  have hrow' : x (idx_main_v20 (idx_main_v22 i)) = x (idx_main_v25 (idx_main_v26 i)) :=
    congrArg x (funext fun a => by match a with | ⟨0, _⟩ => rfl | ⟨1, _⟩ => rfl)
  have hsg : shapeCast Rows (val_main_v17 (F := Ideal) x W b u) h (lane i) = val_main_v17 (F := Ideal) x W b u (idx_main_v21 (idx_main_v23 i)) :=
    (rows_apply _ h _ _ _).trans (congrArg (val_main_v17 (F := Ideal) x W b u) (funext fun a => by match a with | ⟨0, _⟩ => rfl | ⟨1, _⟩ => rfl))
  have hds : shapeCast Rows (val_main_v19 (F := Ideal) x W b u) h (lane i) = val_main_v19 (F := Ideal) x W b u (idx_main_v34 (idx_main_v35 i)) :=
    (rows_apply _ h _ _ _).trans (congrArg (val_main_v19 (F := Ideal) x W b u) (funext fun a => by match a with | ⟨0, _⟩ => rfl | ⟨1, _⟩ => rfl))
  have hds' : val_main_v19 (F := Ideal) x W b u (idx_main_v46 (idx_main_v47 i)) = val_main_v19 (F := Ideal) x W b u (idx_main_v34 (idx_main_v35 i)) :=
    congrArg (val_main_v19 (F := Ideal) x W b u) (funext fun a => by match a with | ⟨0, _⟩ => rfl | ⟨1, _⟩ => rfl)
  show FloatOps.addf (FloatOps.mulf (shapeCast Rows (val_main_v19 (F := Ideal) x W b u) h (lane i)) (RW i))
      (FloatOps.addf
        (FloatOps.mulf (shapeCast Rows (val_main_v19 (F := Ideal) x W b u) h (lane i))
          (FloatOps.addf (FloatOps.mulf (Scalar.ofBits .f32 0x3F666666#32) (EW i)) (shapeCast Rows x h (row i))))
        (FloatOps.mulf (shapeCast Rows x h (row i)) (shapeCast Rows (val_main_v17 (F := Ideal) x W b u) h (lane i)))) = _
  rw [hrow, hsg, hds, val_main_v49_apply, val_main_v48_apply, val_main_v47_apply, val_main_v46_apply, hds', val_main_v37_apply,
    val_main_v36_apply, val_main_v35_apply, val_main_v34_apply, val_main_v30_apply, val_main_v29_apply, val_main_v28_apply,
    val_main_cst_6_apply, val_main_v26_apply, val_main_v25_apply, val_main_v24_apply, val_main_v22_apply, val_main_v20_apply, hrow',
    val_main_v23_apply, val_main_v21_apply]

end Cert.Same

end
-- ==== Proof.lean ====
/-
  The certificate of the eligibility-trace update: a dense layer, a leaky integrator with a sigmoid spike, and the
  first- and second-order traces of the weights and the bias, as two TPU kernels against the plain jnp program.

  WHAT IS COMPUTED. With β = λ = the f32 nearest 0.9 (pattern 0x3F666666), for a batch of 32 samples, 1024 inputs and
  1024 outputs:
      h = x·W + b,   s = sigmoid (β·u + h − 1),   sg = s·(1 − s),   ds_du = β·sg,
      E_b2 = β·(β·E_b + 1) + 1,          Rh_b2 = ds_du·Rh_b + (ds_du·(β·E_b + 1) + sg),
      E_W2 = β·(β·E_W + x) + x,          Rh_W2 = ds_du·Rh_W + (ds_du·(β·E_W + x) + x·sg)     (x along inputs, sg and ds_du along outputs),
      r2 = λ·r + 1,   q = λ·r / r2,      g_bar2 = q·g_bar + (1 − q)·ds_du.
  The first kernel computes everything of size [32, 1024] or [32, 1] at one grid point; the second streams the two
  [32, 1024, 1024] traces through a 32 × 4 grid of [1, 1024, 256] tiles, reading `x`, `sg`, `ds_du` through
  [32, 1, 1024] reshapes made on the host between the two.

  WHY THE TWO PROGRAMS AGREE at the ideal instance. They apply the same operations in the same order with the same
  literals; nothing is re-associated, so nothing needs the inputs to be finite. The differences are of spelling only:
  the kernel's `logistic` is the reference's `1 / (1 + exp (−z))`; its matrix product of bf16-narrowed operands into a
  zero accumulator is the reference's `dot_general` (a change of format is the identity); splats, row and column
  broadcasts and the [32, 1, 1024] views read the same entries as the reference's broadcasts in dimensions (Chain.lean
  for the first kernel's values, Tile.lean and Same.lean for the traces). Each result array's value is stated as the
  reference's own stage of that name.

  HOW THE KERNEL'S RUN IS READ. The frame of each program is the generated one. For the values, the kit's launch over the
  same three segments is called once more with a post that keeps every buffer at the last boundary's contents
  (LaunchAll.lean); those contents are walked back through the second region (its 128 blocks tile each trace: Big.lean),
  the three host reshapes and the first region (whole-array blocks: Small.lean) to the launch memory (Ends.lean).
  `preserves` has no conjunct: the idealization rewrote nothing.
-/
import proofs.«163380_j30940944400973_1_alg».proof.Defs
import proofs.«163380_j30940944400973_1_alg».proof.Proof.Gen.Kernel
import proofs.«163380_j30940944400973_1_alg».proof.Proof.Gen.Kernel.Skeleton
import proofs.«163380_j30940944400973_1_alg».proof.Proof.Gen.Kernel.Launch
import proofs.«163380_j30940944400973_1_alg».proof.Proof.Gen.Kernel.Points
import proofs.«163380_j30940944400973_1_alg».proof.Proof.Gen.Kernel.Frame
import proofs.«163380_j30940944400973_1_alg».proof.Proof.Gen.KernelIdeal
import proofs.«163380_j30940944400973_1_alg».proof.Proof.Gen.KernelIdeal.Skeleton
import proofs.«163380_j30940944400973_1_alg».proof.Proof.Gen.KernelIdeal.Launch
import proofs.«163380_j30940944400973_1_alg».proof.Proof.Gen.KernelIdeal.Points
import proofs.«163380_j30940944400973_1_alg».proof.Proof.Gen.KernelIdeal.Frame
import proofs.«163380_j30940944400973_1_alg».proof.Proof.Gen.ReferenceIdeal
import proofs.«163380_j30940944400973_1_alg».proof.Proof.Gen.Pre_finite_inputs
import proofs.«163380_j30940944400973_1_alg».proof.Proof.Gen.ReferenceIdeal.Run
import proofs.«163380_j30940944400973_1_alg».proof.Proof.Gen.ReferenceIdeal.Read
import proofs.«163380_j30940944400973_1_alg».proof.Proof.Ends
import proofs.«163380_j30940944400973_1_alg».proof.Proof.Chain
import proofs.«163380_j30940944400973_1_alg».proof.Proof.Same
import Idealize.ShloMosaic.Adequacy
import Idealize.ShloMosaic.Init

noncomputable section

namespace Cert.Proof

open Idealize.ShloMosaic Idealize.ShloMosaic.TcCoe Idealize.SL.Sem
open Cert.ReferenceIdeal.Read

/-! ## The kernel's run, each result at the reference's stage of the kernel's own arguments -/

theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v0_0)
        = val_main_v14 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      ∧ r.2.mem ((c.tc : Thread Cert.KernelIdeal.nD Cert.KernelIdeal.τ).loc Cert.KernelIdeal.main_v4_0)
        = val_main_v42 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg4))
      ∧ r.2.mem ((c.tc : Thread Cert.KernelIdeal.nD Cert.KernelIdeal.τ).loc Cert.KernelIdeal.main_v0_3)
        = val_main_v45 (F := Ideal) (m ((c.tc : Thread Cert.KernelIdeal.nD Cert.KernelIdeal.τ).loc Cert.KernelIdeal.main_arg5))
      ∧ r.2.mem ((c.tc : Thread Cert.KernelIdeal.nD Cert.KernelIdeal.τ).loc Cert.KernelIdeal.main_v4_1)
        = val_main_v49 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg6))
      ∧ r.2.mem ((c.tc : Thread Cert.KernelIdeal.nD Cert.KernelIdeal.τ).loc Cert.KernelIdeal.main_v0_4)
        = val_main_v51 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)) (m ((c.tc : Thread Cert.KernelIdeal.nD Cert.KernelIdeal.τ).loc Cert.KernelIdeal.main_arg7))
      ∧ r.2.mem ((c.tc : Thread Cert.KernelIdeal.nD Cert.KernelIdeal.τ).loc Cert.KernelIdeal.main_v0_5)
        = val_main_v63 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))
      ∧ r.2.mem ((c.tc : Thread Cert.KernelIdeal.nD Cert.KernelIdeal.τ).loc Cert.KernelIdeal.main_v0_6)
        = val_main_v55 (F := Ideal) (m ((c.tc : Thread Cert.KernelIdeal.nD Cert.KernelIdeal.τ).loc Cert.KernelIdeal.main_arg9))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)) := by
  refine (θ_run Cert.KernelIdeal.defs _ _).mono (fun r h c => ?_) (Cert.KernelIdeal.Ends.run_values (F := Ideal) m ρ)
  obtain ⟨h0, h1, h2, h3, h4, h5, h6, hargs⟩ := h c
  refine ⟨h0.trans (Cert.Chain.s_eq _ _ _ _), h1.trans (Cert.Same.traceE_eq _ _ _), h2.trans (Cert.Chain.eb2_eq _), h3.trans ?_,
    h4.trans (Cert.Chain.rhb2_eq _ _ _ _ _ _), h5.trans (Cert.Chain.gbar2_eq _ _ _ _ _ _), h6.trans (Cert.Chain.r2_eq _), hargs⟩
  show Cert.Spec.traceR (F := Ideal) _ (shapeCast _ (Cert.KernelIdeal.Gen.k0_pay5 (F := Ideal) _ _ _ _) _) (shapeCast _ (Cert.KernelIdeal.Gen.k0_pay6 (F := Ideal) _ _ _ _) _) _ _ = _
  rw [Cert.Chain.sg_eq, Cert.Chain.dsdu_eq]
  exact Cert.Same.traceR_eq _ _ _ _ _ _ _

/-! ## The claims -/

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the results dropped. -/
theorem frame_ri : Cert.frame_ReferenceIdeal := fun m ρ _ =>
  (θ_run Cert.ReferenceIdeal.defs _ _).mono (fun _ h c => (h c).2.2.2.2.2.2.2) (Cert.ReferenceIdeal.Value.run (F := Ideal) m ρ)

/-- The idealization rewrote no operation. -/
theorem preserves : Cert.preserves_Kernel_KernelIdeal := trivial

/-- Both programs end with each result at the reference's stage of the kernel's arguments: the kernel by `kernel_run`,
    the reference by its generated run, its own arguments rewritten to the kernel's by the agreement. -/
theorem algebraic : Cert.algebraic_KernelIdeal_ReferenceIdeal := by
  intro m ρ m' ρ' _ hagree
  refine ⟨_, _, _, _, _, _, _, kernel_run m ρ, ?_⟩
  refine (θ_run Cert.ReferenceIdeal.defs _ _).mono (fun r h c => ?_) (Cert.ReferenceIdeal.Value.run (F := Ideal) m' ρ')
  obtain ⟨h0, h1, h2, h3, h4, h5, h6, hargs⟩ := h c
  obtain ⟨e0, e1, e2, e3, e4, e5, e6, e7, e8, e9⟩ := hagree c
  refine ⟨h0.trans ?_, h1.trans ?_, h2.trans ?_, h3.trans ?_, h4.trans ?_, h5.trans ?_, h6.trans ?_, hargs⟩
  · rw [val_main_v14_eq, e0, e1, e2, e3]
  · rw [val_main_v42_eq, e0, e4]
  · rw [val_main_v45_eq, e5]
  · rw [val_main_v49_eq, e0, e1, e2, e3, e4, e6]
  · rw [val_main_v51_eq, e0, e1, e2, e3, e5, e7]
  · rw [val_main_v63_eq, e0, e1, e2, e3, e8, e9]
  · rw [val_main_v55_eq, e9]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
